-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S192x64 : Shape := ⟨2, ![192, 64]⟩
abbrev S64 : Shape := ⟨1, ![64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg9 : FVec F S64 .f32) (main_arg10 : FVec F S64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x64 .f32) (main_arg7 : FVec F S64 .f32) (main_arg8 : FVec F S64 .f32) (main_arg9 : FVec F S64 .f32) (main_arg10 : FVec F S64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S1000000x64 .f32) (main_arg2 : IVec S1000000 32) (main_arg3 : IVec S1000000 32) (main_arg4 : FVec F S192x64 .f32) (main_arg5 : FVec F S64 .f32) (main_arg6 : FVec F S128x64 .f32) (main_arg7 : FVec F S64 .f32) (main_arg8 : FVec F S64 .f32) (main_arg9 : FVec F S64 .f32) (main_arg10 : FVec F S64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S192x64 : Shape := ⟨2, ![192, 64]⟩
abbrev S64 : Shape := ⟨1, ![64]⟩
abbrev S128x64 : Shape := ⟨2, ![128, 64]⟩
abbrev S_ : Shape := ⟨0, ![]⟩
abbrev S1000000x1 : Shape := ⟨2, ![1000000, 1]⟩
abbrev S64x64 : Shape := ⟨2, ![64, 64]⟩
abbrev S1x64 : Shape := ⟨2, ![1, 64]⟩
abbrev S4000x64 : Shape := ⟨2, ![4000, 64]⟩
abbrev S4000 : Shape := ⟨1, ![4000]⟩
abbrev S4000x1 : Shape := ⟨2, ![4000, 1]⟩
abbrev S10000x64 : Shape := ⟨2, ![10000, 64]⟩
abbrev S10000 : Shape := ⟨1, ![10000]⟩
abbrev S10000x1 : Shape := ⟨2, ![10000, 1]⟩

abbrev nBuf : Space → Nat
  | .hbm => 48
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1000000x64, .f32⟩
  | .hbm, ⟨37, _⟩ => ⟨S1000000x64, .f32⟩
  | .hbm, ⟨38, _⟩ => ⟨S_, .f32⟩
  | .hbm, ⟨39, _⟩ => ⟨S100000x64, .f32⟩
  | .hbm, ⟨40, _⟩ => ⟨S1000000x1, .i32⟩
  | .hbm, ⟨41, _⟩ => ⟨S100000x64, .f32⟩
  | .hbm, ⟨42, _⟩ => ⟨S64x64, .f32⟩
  | .hbm, ⟨43, _⟩ => ⟨S64x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  gather_S100000x64_S1000000x1_S1000000x64_1_0_n_n_0_1_164_wf : GatherDims.WF S100000x64 S1000000x1 S1000000x64 [1] [0] [] [0] [] 1 ![1, 64]
  dot_S4000x64_S64x64_S4000x64_1_0_0_1_n_n_wf : DotDims.WF S4000x64 S64x64 S4000x64 [1] [0] [0] [1] [] []
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S1000000x64.size a
  hwx0_2 : ∀ i : grid0.Coords, EltTy.bits .f32 = 32 ∨ (Rect.block (s := S1000000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S1000000x64.size a
  hwx0_9 : ∀ i : grid0.Coords, EltTy.bits .f32 = 32 ∨ (Rect.block (s := S1000000x64) S4000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S1000000x64.size a
  hwx0_10 : ∀ i : grid0.Coords, EltTy.bits .f32 = 32 ∨ (Rect.block (s := S1000000x64) S4000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20_0) S4000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v20_1) S4000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S192x64 : Shape := ⟨2, ![192, 64]⟩
abbrev S64 : Shape := ⟨1, ![64]⟩
abbrev S128x64 : Shape := ⟨2, ![128, 64]⟩
abbrev S_ : Shape := ⟨0, ![]⟩
abbrev S1000000x1 : Shape := ⟨2, ![1000000, 1]⟩
abbrev S1000000x192 : Shape := ⟨2, ![1000000, 192]⟩
abbrev S1x64 : Shape := ⟨2, ![1, 64]⟩
abbrev S100000x128 : Shape := ⟨2, ![100000, 128]⟩
abbrev S100000 : Shape := ⟨1, ![100000]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S1000000x192, .f32⟩
  | .hbm, ⟨31, _⟩ => ⟨S1000000x64, .f32⟩
  | .hbm, ⟨32, _⟩ => ⟨S1x64, .f32⟩
  | .hbm, ⟨33, _⟩ => ⟨S1000000x64, .f32⟩
  | .hbm, ⟨34, _⟩ => ⟨S1000000x64, .f32⟩
  | .hbm, ⟨35, _⟩ => ⟨S_, .f32⟩
  | .hbm, ⟨36, _⟩ => ⟨S100000x64, .f32⟩
  | .hbm, ⟨37, _⟩ => ⟨S1000000x1, .i32⟩
  | .hbm, ⟨38, _⟩ => ⟨S100000x64, .f32⟩
  | .hbm, ⟨39, _⟩ => ⟨S100000x128, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S1000000x64, .f32⟩
  | .hbm, ⟨75, _⟩ => ⟨S_, .f32⟩
  | .hbm, ⟨76, _⟩ => ⟨S1000000, .f32⟩
  | .hbm, ⟨77, _⟩ => ⟨S1000000x1, .f32⟩
  | .hbm, ⟨78, _⟩ => ⟨S_, .f32⟩
  | .hbm, ⟨79, _⟩ => ⟨S1000000x1, .f32⟩
  | .hbm, ⟨80, _⟩ => ⟨S1000000x1, .f32⟩
  | .hbm, ⟨81, _⟩ => ⟨S1000000x64, .f32⟩
  | .hbm, ⟨82, _⟩ => ⟨S1000000x64, .f32⟩
  | .hbm, ⟨83, _⟩ => ⟨S1000000x64, .f32⟩
  | .hbm, ⟨84, _⟩ => ⟨S_, .f32⟩
  | .hbm, ⟨85, _⟩ => ⟨S1000000, .f32⟩
  | .hbm, ⟨86, _⟩ => ⟨S1000000x1, .f32⟩
  | .hbm, ⟨87, _⟩ => ⟨S_, .f32⟩
  | .hbm, ⟨88, _⟩ => ⟨S1000000x1, .f32⟩
  | .hbm, ⟨89, _⟩ => ⟨S1000000x1, .f32⟩
  | .hbm, ⟨90, _⟩ => ⟨S1000000x64, .f32⟩
  | .hbm, ⟨91, _⟩ => ⟨S1000000x64, .f32⟩
  | .hbm, ⟨92, _⟩ => ⟨S_, .f32⟩
  | .hbm, ⟨93, _⟩ => ⟨S1000000x1, .f32⟩
  | .hbm, ⟨94, _⟩ => ⟨S1000000x1, .f32⟩
  | .hbm, ⟨95, _⟩ => ⟨S1000000x1, .f32⟩
  | .hbm, ⟨96, _⟩ => ⟨S1000000x64, .f32⟩
  | .hbm, ⟨97, _⟩ => ⟨S1000000x64, .f32⟩
  | .hbm, ⟨98, _⟩ => ⟨S1x64, .f32⟩
  | .hbm, ⟨99, _⟩ => ⟨S1000000x64, .f32⟩
  | .hbm, ⟨100, _⟩ => ⟨S1000000x64, .f32⟩
  | .hbm, ⟨101, _⟩ => ⟨S1x64, .f32⟩
  | .hbm, ⟨102, _⟩ => ⟨S1000000x64, .f32⟩
  | .hbm, ⟨103, _⟩ => ⟨S1000000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S1000000x64_S1000000_d1 : S1000000x64.ReducesTo [1] S1000000
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  gather_S100000x64_S1000000x1_S1000000x64_1_0_n_n_0_1_164_wf : GatherDims.WF S100000x64 S1000000x1 S1000000x64 [1] [0] [] [0] [] 1 ![1, 64]
  dot_S1000000x192_S192x64_S1000000x64_1_0_0_1_n_n_wf : DotDims.WF S1000000x192 S192x64 S1000000x64 [1] [0] [0] [1] [] []
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostSide.lean ====
/-
  The host side of the kernel program's run: what each region finds in its operands and where the two results lie.

  The program's buffers after its four segments are a fold over the launch memory: the host operations before the edge
  kernel (two gathers of node rows by the sender and receiver indices, three row slices of the edge weight matrix,
  three vectors recast as one-row matrices), the edge kernel's two output arrays, the host operations between the
  kernels (the scatter-add of the new edge features onto their receiver nodes, two row slices of the node weight
  matrix, three recasts) and the node kernel's output array. Read at one buffer the fold unwinds to the operation that
  wrote it, applied to the buffers it read. No host operation and no kernel writes an argument array, so an argument
  read anywhere along the fold is the launch memory's.
-/
import proofs.«118604_j17901423690016_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The two host chains both programs share -/

/-- The rows of the node array picked by an index vector: a negative index counts from the end (100000 is added),
    then the rows are gathered. -/
def gatherRows (x0 : (⟨S100000x64, .f32⟩ : BufTy).Contents (Elt Ideal)) (ix : (⟨S1000000, .i32⟩ : BufTy).Contents (Elt Ideal)) :
    (⟨S1000000x64, .f32⟩ : BufTy).Contents (Elt Ideal) :=
  Host.gather gather_S100000x64_S1000000x1_S1000000x64_1_0_n_n_0_1_164 x0
    (broadcastInDim S1000000x1 ![0] bcast_S1000000_S1000000x1_0
      (select (cmpi .slt ix (broadcastInDim S1000000 ![] bcast_S_S1000000 (constantI S_ 32 0#32)))
        (addi ix (broadcastInDim S1000000 ![] bcast_S_S1000000 (constantI S_ 32 100000#32))) ix))

/-- The rows of an edge array summed onto the node rows an index vector names, from the all-zero node array. -/
def scatterRows (ix : (⟨S1000000, .i32⟩ : BufTy).Contents (Elt Ideal)) (u : (⟨S1000000x64, .f32⟩ : BufTy).Contents (Elt Ideal)) :
    (⟨S100000x64, .f32⟩ : BufTy).Contents (Elt Ideal) :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 ix) u

/-! ## What the edge kernel finds in its operands -/

theorem V1_arg1 (c : Dev nD) : V1 m ρ c main_arg1 = m ((c : Thread nD τ).loc main_arg1) := by
  show StableHlo.after hostOps0 (W0 m ρ c) (Proc.devRef .tc main_arg1) = _
  after_results
  try rfl

theorem V1_v6 (c : Dev nD) :
    V1 m ρ c main_v6 = gatherRows (m ((c : Thread nD τ).loc main_arg0)) (m ((c : Thread nD τ).loc main_arg2)) := by
  show StableHlo.after hostOps0 (W0 m ρ c) (Proc.devRef .tc main_v6) = _
  after_results
  try rfl

theorem V1_v13 (c : Dev nD) :
    V1 m ρ c main_v13 = gatherRows (m ((c : Thread nD τ).loc main_arg0)) (m ((c : Thread nD τ).loc main_arg3)) := by
  show StableHlo.after hostOps0 (W0 m ρ c) (Proc.devRef .tc main_v13) = _
  after_results
  try rfl

theorem V1_v14 (c : Dev nD) :
    V1 m ρ c main_v14 = extractStridedSlice S64x64 ![0, 0] (m ((c : Thread nD τ).loc main_arg4)) slices_S192x64_S64x64_0_0 := by
  show StableHlo.after hostOps0 (W0 m ρ c) (Proc.devRef .tc main_v14) = _
  after_results
  try rfl

theorem V1_v15 (c : Dev nD) :
    V1 m ρ c main_v15 = extractStridedSlice S64x64 ![64, 0] (m ((c : Thread nD τ).loc main_arg4)) slices_S192x64_S64x64_64_0 := by
  show StableHlo.after hostOps0 (W0 m ρ c) (Proc.devRef .tc main_v15) = _
  after_results
  try rfl

theorem V1_v16 (c : Dev nD) :
    V1 m ρ c main_v16 = extractStridedSlice S64x64 ![128, 0] (m ((c : Thread nD τ).loc main_arg4)) slices_S192x64_S64x64_128_0 := by
  show StableHlo.after hostOps0 (W0 m ρ c) (Proc.devRef .tc main_v16) = _
  after_results
  try rfl

theorem V1_v17 (c : Dev nD) :
    V1 m ρ c main_v17 = shapeCast S1x64 (m ((c : Thread nD τ).loc main_arg5)) shapeCasts_S64_S1x64 := by
  show StableHlo.after hostOps0 (W0 m ρ c) (Proc.devRef .tc main_v17) = _
  after_results
  try rfl

theorem V1_v18 (c : Dev nD) :
    V1 m ρ c main_v18 = shapeCast S1x64 (m ((c : Thread nD τ).loc main_arg10)) shapeCasts_S64_S1x64 := by
  show StableHlo.after hostOps0 (W0 m ρ c) (Proc.devRef .tc main_v18) = _
  after_results
  try rfl

theorem V1_v19 (c : Dev nD) :
    V1 m ρ c main_v19 = shapeCast S1x64 (m ((c : Thread nD τ).loc main_arg11)) shapeCasts_S64_S1x64 := by
  show StableHlo.after hostOps0 (W0 m ρ c) (Proc.devRef .tc main_v19) = _
  after_results
  try rfl

/-! ## The arguments the second stretch of host operations reads, as the edge kernel leaves them -/

theorem W2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results
  try rfl

theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
  try rfl

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
  try rfl

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
  try rfl

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results
  try rfl

theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results
  try rfl

/-! ## What the node kernel finds in its operands -/

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

/-- The aggregated array: the edge kernel's first output, as its write-backs leave it, scattered onto the receivers. -/
theorem V3_v23 (c : Dev nD) :
    V3 m ρ c main_v23 = scatterRows (m ((c : Thread nD τ).loc main_arg3)) ((dat0 (V1 m ρ) c).arrAt 9 cfg0.N) := by
  show StableHlo.after hostOps1 (W2 m ρ c) (Proc.devRef .tc main_v23) = _
  after_results
  rw [W2_arg3 m ρ c, show W2 m ρ c (Proc.devRef .tc main_v20_0) = _ from W2_arr m ρ c 9]
  rfl

theorem V3_v24 (c : Dev nD) :
    V3 m ρ c main_v24 = extractStridedSlice S64x64 ![0, 0] (m ((c : Thread nD τ).loc main_arg6)) slices_S128x64_S64x64_0_0 := by
  show StableHlo.after hostOps1 (W2 m ρ c) (Proc.devRef .tc main_v24) = _
  after_results
  rw [W2_arg6 m ρ c]

theorem V3_v25 (c : Dev nD) :
    V3 m ρ c main_v25 = extractStridedSlice S64x64 ![64, 0] (m ((c : Thread nD τ).loc main_arg6)) slices_S128x64_S64x64_64_0 := by
  show StableHlo.after hostOps1 (W2 m ρ c) (Proc.devRef .tc main_v25) = _
  after_results
  rw [W2_arg6 m ρ c]

theorem V3_v26 (c : Dev nD) :
    V3 m ρ c main_v26 = shapeCast S1x64 (m ((c : Thread nD τ).loc main_arg7)) shapeCasts_S64_S1x64 := by
  show StableHlo.after hostOps1 (W2 m ρ c) (Proc.devRef .tc main_v26) = _
  after_results
  rw [W2_arg7 m ρ c]
  try rfl

theorem V3_v27 (c : Dev nD) :
    V3 m ρ c main_v27 = shapeCast S1x64 (m ((c : Thread nD τ).loc main_arg8)) shapeCasts_S64_S1x64 := by
  show StableHlo.after hostOps1 (W2 m ρ c) (Proc.devRef .tc main_v27) = _
  after_results
  rw [W2_arg8 m ρ c]
  try rfl

theorem V3_v28 (c : Dev nD) :
    V3 m ρ c main_v28 = shapeCast S1x64 (m ((c : Thread nD τ).loc main_arg9)) shapeCasts_S64_S1x64 := by
  show StableHlo.after hostOps1 (W2 m ρ c) (Proc.devRef .tc main_v28) = _
  after_results
  rw [W2_arg9 m ρ c]
  try rfl

/-! ## Where the two results lie after the last segment -/

/-- The node result is the node kernel's output array as its write-backs leave it. -/
theorem W4_v29 (c : Dev nD) : W4 m ρ c (Proc.devRef .tc main_v29) = (dat1 (V3 m ρ) c).arrAt 7 cfg1.N :=
  W4_arr m ρ c 7

/-- The edge result is the edge kernel's second output array as its write-backs leave it: neither the second stretch
    of host operations nor the node kernel writes it. -/
theorem W4_v20_1 (c : Dev nD) : W4 m ρ c (Proc.devRef .tc main_v20_1) = (dat0 (V1 m ρ) c).arrAt 10 cfg0.N := by
  rw [W4_of_ne m ρ c main_v20_1 (by decide)]
  show StableHlo.after hostOps1 (W2 m ρ c) (Proc.devRef .tc main_v20_1) = _
  after_results
  exact W2_arr m ρ c 10

end Cert.KernelIdeal.HostValue

end
-- ==== Proof.Spec.lean ====
/-
  The mathematics both programs compute, stated once over the extended reals.

  A graph layer updates every edge from its own features and the features of its two end nodes, and every node from
  its own features and the sum of the updated features of the edges that arrive at it. Each update is an affine map
  (a matrix product with a weight matrix, plus a bias), followed by a residual addition and a normalisation of each
  row of 64 numbers to zero mean and unit variance, rescaled and shifted.

  The affine map of an edge acts on the concatenation of three rows of 64 numbers with a 192 × 64 weight matrix. A sum
  over the 192 concatenated positions is the sum of three sums over 64 positions, one per piece, the second and third
  reading the weight rows 64 and 128 further down; the extended reals are a commutative monoid under addition, so this
  regrouping holds for every value, infinite ones included. The node's map is the same with two pieces and 128 rows.
  Everything here is a function of ONE ROW of each operand: an array of any number of rows is mapped row by row, so a
  block of rows of an array is mapped to the same block of rows of the array's image.
-/
import Idealize.ShloMosaic.PureOps.Ideal.Laws
import Idealize.ShloMosaic.Lib.ValueIdx
import Idealize.ShloMosaic.Lib.ValueLayout

noncomputable section

open scoped BigOperators

namespace Cert.GT

open Idealize.ShloMosaic Idealize.ShloMosaic.ValueIdx

/-- An array of `R` rows of `C` extended reals. -/
abbrev Mat (R C : Nat) : Type := (⟨2, ![R, C]⟩ : Shape).Idx → EReal
/-- A vector of `C` extended reals. -/
abbrev Vec1 (C : Nat) : Type := (⟨1, ![C]⟩ : Shape).Idx → EReal

/-- The row coordinate of a rank-2 index, as a number below the row count. -/
abbrev r0 {R C : Nat} (i : (⟨2, ![R, C]⟩ : Shape).Idx) : Fin R := ⟨(i 0).val, idx2_lt0 i⟩
/-- The column coordinate of a rank-2 index, as a number below the column count. -/
abbrev c1 {R C : Nat} (i : (⟨2, ![R, C]⟩ : Shape).Idx) : Fin C := ⟨(i 1).val, idx2_lt1 i⟩

/-- The divisor 64.0 of a mean over 64 entries. -/
def c64 : EReal := Ideal.ofBits .f32 0x42800000#32
/-- The small constant added to a variance before the reciprocal square root. -/
def ceps : EReal := Ideal.ofBits .f32 0x358637BD#32

/-- The mean of 64 numbers: their sum divided by 64.0. -/
def mean (x : Fin 64 → EReal) : EReal := Ideal.div (∑ k, x k) c64

/-- The normalisation of one row `x` at column `q`: the entry less the row's mean, times the reciprocal square
    root of the row's variance plus the small constant, times the scale, plus the shift. -/
def ln (x sc bi : Fin 64 → EReal) (q : Fin 64) : EReal :=
  (x q - mean x) * Ideal.rsqrt (mean (fun k => (x k - mean x) * (x k - mean x)) + ceps) * sc q + bi q

/-- Rows 0 … 63 of a matrix of at least 64 rows. -/
abbrev lo {n : Nat} (h : 64 ≤ n) (k : Fin 64) : Fin n := ⟨k.val, by omega⟩
/-- Rows 64 … 127 of a matrix of at least 128 rows. -/
abbrev mid {n : Nat} (h : 128 ≤ n) (k : Fin 64) : Fin n := ⟨64 + k.val, by omega⟩
/-- Rows 128 … 191 of a matrix of at least 192 rows. -/
abbrev hi {n : Nat} (h : 192 ≤ n) (k : Fin 64) : Fin n := ⟨128 + k.val, by omega⟩

/-! ## The edge update -/

/-- The edge's affine map with the weight matrix whole: three sums of 64 products, over the weight rows 0 … 63,
    64 … 127 and 128 … 191, grouped from the left, plus the bias. -/
def edgeNew {R : Nat} (e s r : Mat R 64) (We : Mat 192 64) (be : Vec1 64) : Mat R 64 := fun i =>
  ((∑ k : Fin 64, e (ix2 (r0 i) k) * We (ix2 (lo (by decide) k) (c1 i))
      + ∑ k : Fin 64, s (ix2 (r0 i) k) * We (ix2 (mid (by decide) k) (c1 i)))
    + ∑ k : Fin 64, r (ix2 (r0 i) k) * We (ix2 (hi (by decide) k) (c1 i)))
  + be (ix1 (c1 i))

/-- The same with the weight matrix handed over as its three 64 × 64 pieces and the bias as a one-row matrix. -/
def edgeNewK {R : Nat} (e s r : Mat R 64) (W0 W1 W2 : Mat 64 64) (b : Mat 1 64) : Mat R 64 := fun i =>
  ((∑ k : Fin 64, e (ix2 (r0 i) k) * W0 (ix2 k (c1 i))
      + ∑ k : Fin 64, s (ix2 (r0 i) k) * W1 (ix2 k (c1 i)))
    + ∑ k : Fin 64, r (ix2 (r0 i) k) * W2 (ix2 k (c1 i)))
  + b (ix2 (0 : Fin 1) (c1 i))

/-! ## The node update -/

/-- The node's affine map with the weight matrix whole: two sums of 64 products, plus the bias. -/
def nodeNew {R : Nat} (n a : Mat R 64) (Wn : Mat 128 64) (bn : Vec1 64) : Mat R 64 := fun i =>
  (∑ k : Fin 64, n (ix2 (r0 i) k) * Wn (ix2 (lo (by decide) k) (c1 i))
      + ∑ k : Fin 64, a (ix2 (r0 i) k) * Wn (ix2 (mid (by decide) k) (c1 i)))
  + bn (ix1 (c1 i))

/-- The same with the weight matrix as its two 64 × 64 pieces and the bias as a one-row matrix. -/
def nodeNewK {R : Nat} (n a : Mat R 64) (W0 W1 : Mat 64 64) (b : Mat 1 64) : Mat R 64 := fun i =>
  (∑ k : Fin 64, n (ix2 (r0 i) k) * W0 (ix2 k (c1 i))
      + ∑ k : Fin 64, a (ix2 (r0 i) k) * W1 (ix2 k (c1 i)))
  + b (ix2 (0 : Fin 1) (c1 i))

/-! ## Residual and normalisation -/

/-- The entrywise sum of two arrays. -/
def addM {R : Nat} (x y : Mat R 64) : Mat R 64 := fun i => x i + y i

/-- Every row normalised, scale and shift given as vectors. -/
def lnR {R : Nat} (x : Mat R 64) (sc bi : Vec1 64) : Mat R 64 := fun i =>
  ln (fun k => x (ix2 (r0 i) k)) (fun k => sc (ix1 k)) (fun k => bi (ix1 k)) (c1 i)

/-- Every row normalised, scale and shift given as one-row matrices. -/
def lnK {R : Nat} (x : Mat R 64) (sc bi : Mat 1 64) : Mat R 64 := fun i =>
  ln (fun k => x (ix2 (r0 i) k)) (fun k => sc (ix2 (0 : Fin 1) k)) (fun k => bi (ix2 (0 : Fin 1) k)) (c1 i)

/-! ## Read at a row and a column -/

theorem edgeNewK_apply {R : Nat} (e s r : Mat R 64) (W0 W1 W2 : Mat 64 64) (b : Mat 1 64) (p : Fin R) (q : Fin 64) :
    edgeNewK e s r W0 W1 W2 b (ix2 p q)
      = ((∑ k : Fin 64, e (ix2 p k) * W0 (ix2 k q) + ∑ k : Fin 64, s (ix2 p k) * W1 (ix2 k q))
          + ∑ k : Fin 64, r (ix2 p k) * W2 (ix2 k q)) + b (ix2 (0 : Fin 1) q) := rfl

theorem edgeNew_apply {R : Nat} (e s r : Mat R 64) (We : Mat 192 64) (be : Vec1 64) (p : Fin R) (q : Fin 64) :
    edgeNew e s r We be (ix2 p q)
      = ((∑ k : Fin 64, e (ix2 p k) * We (ix2 (lo (by decide) k) q)
            + ∑ k : Fin 64, s (ix2 p k) * We (ix2 (mid (by decide) k) q))
          + ∑ k : Fin 64, r (ix2 p k) * We (ix2 (hi (by decide) k) q)) + be (ix1 q) := rfl

theorem nodeNewK_apply {R : Nat} (n a : Mat R 64) (W0 W1 : Mat 64 64) (b : Mat 1 64) (p : Fin R) (q : Fin 64) :
    nodeNewK n a W0 W1 b (ix2 p q)
      = (∑ k : Fin 64, n (ix2 p k) * W0 (ix2 k q) + ∑ k : Fin 64, a (ix2 p k) * W1 (ix2 k q))
          + b (ix2 (0 : Fin 1) q) := rfl

theorem nodeNew_apply {R : Nat} (n a : Mat R 64) (Wn : Mat 128 64) (bn : Vec1 64) (p : Fin R) (q : Fin 64) :
    nodeNew n a Wn bn (ix2 p q)
      = (∑ k : Fin 64, n (ix2 p k) * Wn (ix2 (lo (by decide) k) q)
            + ∑ k : Fin 64, a (ix2 p k) * Wn (ix2 (mid (by decide) k) q)) + bn (ix1 q) := rfl

theorem addM_apply {R : Nat} (x y : Mat R 64) (i : (⟨2, ![R, 64]⟩ : Shape).Idx) : addM x y i = x i + y i := rfl

theorem lnR_apply {R : Nat} (x : Mat R 64) (sc bi : Vec1 64) (p : Fin R) (q : Fin 64) :
    lnR x sc bi (ix2 p q) = ln (fun k => x (ix2 p k)) (fun k => sc (ix1 k)) (fun k => bi (ix1 k)) q := rfl

theorem lnK_apply {R : Nat} (x : Mat R 64) (sc bi : Mat 1 64) (p : Fin R) (q : Fin 64) :
    lnK x sc bi (ix2 p q)
      = ln (fun k => x (ix2 p k)) (fun k => sc (ix2 (0 : Fin 1) k)) (fun k => bi (ix2 (0 : Fin 1) k)) q := rfl

/-! ## Rows of a block are rows of the array

Each function above, at row `p`, depends on its row-wise operands only through their row `p`. So if row `p` of
each block operand is row `P` of the corresponding array operand, the block's image at `(p, q)` is the array's image
at `(P, q)`. -/

theorem edgeNewK_row {R R' : Nat} (e s r : Mat R 64) (e' s' r' : Mat R' 64) (W0 W1 W2 : Mat 64 64) (b : Mat 1 64)
    (p : Fin R) (P : Fin R') (q : Fin 64)
    (he : ∀ k, e (ix2 p k) = e' (ix2 P k)) (hs : ∀ k, s (ix2 p k) = s' (ix2 P k)) (hr : ∀ k, r (ix2 p k) = r' (ix2 P k)) :
    edgeNewK e s r W0 W1 W2 b (ix2 p q) = edgeNewK e' s' r' W0 W1 W2 b (ix2 P q) := by
  rw [edgeNewK_apply, edgeNewK_apply]
  simp only [he, hs, hr]

theorem nodeNewK_row {R R' : Nat} (n a : Mat R 64) (n' a' : Mat R' 64) (W0 W1 : Mat 64 64) (b : Mat 1 64)
    (p : Fin R) (P : Fin R') (q : Fin 64)
    (hn : ∀ k, n (ix2 p k) = n' (ix2 P k)) (ha : ∀ k, a (ix2 p k) = a' (ix2 P k)) :
    nodeNewK n a W0 W1 b (ix2 p q) = nodeNewK n' a' W0 W1 b (ix2 P q) := by
  rw [nodeNewK_apply, nodeNewK_apply]
  simp only [hn, ha]

theorem lnK_row {R R' : Nat} (x : Mat R 64) (x' : Mat R' 64) (sc bi : Mat 1 64) (p : Fin R) (P : Fin R') (q : Fin 64)
    (hx : ∀ k, x (ix2 p k) = x' (ix2 P k)) :
    lnK x sc bi (ix2 p q) = lnK x' sc bi (ix2 P q) := by
  rw [lnK_apply, lnK_apply]
  simp only [hx]

/-! ## The pieces of the weight matrix, and the one-row forms of the vectors -/

/-- The edge map over the three row-slices of the weight matrix and the bias recast as one row is the edge map over
    the weight matrix whole: slice `o` of the matrix at row `k` is the matrix at row `o + k`. -/
theorem edgeNewK_slices {R : Nat} (e s r : Mat R 64) (We : Mat 192 64) (be : Vec1 64)
    (h0 : (⟨2, ![192, 64]⟩ : Shape).Slices ![0, 0] ⟨2, ![64, 64]⟩)
    (h1 : (⟨2, ![192, 64]⟩ : Shape).Slices ![64, 0] ⟨2, ![64, 64]⟩)
    (h2 : (⟨2, ![192, 64]⟩ : Shape).Slices ![128, 0] ⟨2, ![64, 64]⟩)
    (hc : (⟨1, ![64]⟩ : Shape).ShapeCasts ⟨2, ![1, 64]⟩) :
    edgeNewK e s r (extractStridedSlice ⟨2, ![64, 64]⟩ ![0, 0] We h0) (extractStridedSlice ⟨2, ![64, 64]⟩ ![64, 0] We h1)
        (extractStridedSlice ⟨2, ![64, 64]⟩ ![128, 0] We h2) (shapeCast ⟨2, ![1, 64]⟩ be hc)
      = edgeNew e s r We be := by
  funext i
  obtain ⟨p, q, rfl⟩ : ∃ (p : Fin R) (q : Fin 64), i = ix2 p q := ⟨i 0, i 1, eq_ix2 i⟩
  have e0 : ∀ k : Fin 64, extractStridedSlice ⟨2, ![64, 64]⟩ ![0, 0] We h0 (ix2 k q) = We (ix2 (lo (by decide) k) q) :=
    fun k => slice2_axis0_apply 0 We h0 k q _ (Nat.zero_add _).symm
  have e1 : ∀ k : Fin 64, extractStridedSlice ⟨2, ![64, 64]⟩ ![64, 0] We h1 (ix2 k q) = We (ix2 (mid (by decide) k) q) :=
    fun k => slice2_axis0_apply 64 We h1 k q _ rfl
  have e2 : ∀ k : Fin 64, extractStridedSlice ⟨2, ![64, 64]⟩ ![128, 0] We h2 (ix2 k q) = We (ix2 (hi (by decide) k) q) :=
    fun k => slice2_axis0_apply 128 We h2 k q _ rfl
  rw [edgeNewK_apply, edgeNew_apply, shapeCast_a_1a_apply]
  simp only [e0, e1, e2]

/-- The node map over the two row-slices of its weight matrix and the bias recast as one row. -/
theorem nodeNewK_slices {R : Nat} (n a : Mat R 64) (Wn : Mat 128 64) (bn : Vec1 64)
    (h0 : (⟨2, ![128, 64]⟩ : Shape).Slices ![0, 0] ⟨2, ![64, 64]⟩)
    (h1 : (⟨2, ![128, 64]⟩ : Shape).Slices ![64, 0] ⟨2, ![64, 64]⟩)
    (hc : (⟨1, ![64]⟩ : Shape).ShapeCasts ⟨2, ![1, 64]⟩) :
    nodeNewK n a (extractStridedSlice ⟨2, ![64, 64]⟩ ![0, 0] Wn h0) (extractStridedSlice ⟨2, ![64, 64]⟩ ![64, 0] Wn h1)
        (shapeCast ⟨2, ![1, 64]⟩ bn hc)
      = nodeNew n a Wn bn := by
  funext i
  obtain ⟨p, q, rfl⟩ : ∃ (p : Fin R) (q : Fin 64), i = ix2 p q := ⟨i 0, i 1, eq_ix2 i⟩
  have e0 : ∀ k : Fin 64, extractStridedSlice ⟨2, ![64, 64]⟩ ![0, 0] Wn h0 (ix2 k q) = Wn (ix2 (lo (by decide) k) q) :=
    fun k => slice2_axis0_apply 0 Wn h0 k q _ (Nat.zero_add _).symm
  have e1 : ∀ k : Fin 64, extractStridedSlice ⟨2, ![64, 64]⟩ ![64, 0] Wn h1 (ix2 k q) = Wn (ix2 (mid (by decide) k) q) :=
    fun k => slice2_axis0_apply 64 Wn h1 k q _ rfl
  rw [nodeNewK_apply, nodeNew_apply, shapeCast_a_1a_apply]
  simp only [e0, e1]

/-- Normalising with the scale and the shift recast as one-row matrices is normalising with the vectors. -/
theorem lnK_casts {R : Nat} (x : Mat R 64) (sc bi : Vec1 64)
    (hs hb : (⟨1, ![64]⟩ : Shape).ShapeCasts ⟨2, ![1, 64]⟩) :
    lnK x (shapeCast ⟨2, ![1, 64]⟩ sc hs) (shapeCast ⟨2, ![1, 64]⟩ bi hb) = lnR x sc bi := by
  funext i
  obtain ⟨p, q, rfl⟩ : ∃ (p : Fin R) (q : Fin 64), i = ix2 p q := ⟨i 0, i 1, eq_ix2 i⟩
  rw [lnK_apply, lnR_apply]
  simp only [shapeCast_a_1a_apply]

/-! ## A sum over concatenated positions -/

/-- A sum over 192 positions is the sum over the first 64, the next 64 and the last 64. -/
theorem sum_192 (f : Fin 192 → EReal) :
    ∑ k : Fin 192, f k
      = (∑ k : Fin 64, f (lo (by decide) k) + ∑ k : Fin 64, f (mid (by decide) k)) + ∑ k : Fin 64, f (hi (by decide) k) := by
  have h := Fin.sum_univ_add (M := EReal) (a := 128) (b := 64) f
  have h' := Fin.sum_univ_add (M := EReal) (a := 64) (b := 64) (fun k : Fin 128 => f (Fin.castAdd 64 k))
  rw [h, h']
  rfl

/-- A sum over 128 positions is the sum over the first 64 and the last 64. -/
theorem sum_128 (f : Fin 128 → EReal) :
    ∑ k : Fin 128, f k = ∑ k : Fin 64, f (lo (by decide) k) + ∑ k : Fin 64, f (mid (by decide) k) := by
  have h := Fin.sum_univ_add (M := EReal) (a := 64) (b := 64) f
  rw [h]
  rfl

end Cert.GT

end
-- ==== Proof.Results.lean ====
/-
  The two results of the graph layer as functions of the twelve argument arrays.

  The new edge features are the affine map of each edge's own row, its sender node's row and its receiver node's row.
  The edge result normalises each row of the new features plus the old. The node result normalises each row of the
  node's affine map — of its own row and of the sum of the new features of the edges it receives — plus the old
  node row. Both programs are shown to end at these functions.
-/
import proofs.«118604_j17901423690016_1_alg».proof.Proof.HostSide
import proofs.«118604_j17901423690016_1_alg».proof.Proof.Spec

noncomputable section

namespace Cert.KernelIdeal.Results

open Cert.KernelIdeal Cert.KernelIdeal.HostValue Cert.GT
open Idealize.ShloMosaic

/-- The new edge features as one function of the argument arrays. -/
def newEdges (a0 : Mat 100000 64) (a1 : Mat 1000000 64) (a2 a3 : (⟨S1000000, .i32⟩ : BufTy).Contents (Elt Ideal))
    (a4 : Mat 192 64) (a5 : Vec1 64) : Mat 1000000 64 :=
  edgeNew a1 (gatherRows a0 a2) (gatherRows a0 a3) a4 a5

/-- The edge result as one function of the argument arrays. -/
def edgesOut (a0 : Mat 100000 64) (a1 : Mat 1000000 64) (a2 a3 : (⟨S1000000, .i32⟩ : BufTy).Contents (Elt Ideal))
    (a4 : Mat 192 64) (a5 a10 a11 : Vec1 64) : Mat 1000000 64 :=
  lnR (addM (newEdges a0 a1 a2 a3 a4 a5) a1) a10 a11

/-- The node result as one function of the argument arrays. -/
def nodesOut (a0 : Mat 100000 64) (a1 : Mat 1000000 64) (a2 a3 : (⟨S1000000, .i32⟩ : BufTy).Contents (Elt Ideal))
    (a4 : Mat 192 64) (a5 : Vec1 64) (a6 : Mat 128 64) (a7 a8 a9 : Vec1 64) : Mat 100000 64 :=
  lnR (addM (nodeNew a0 (scatterRows a3 (newEdges a0 a1 a2 a3 a4 a5)) a6 a7) a0) a8 a9

end Cert.KernelIdeal.Results

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelEdge.lean ====
/-
  The edge kernel's two output arrays as functions of its nine input arrays.

  The kernel visits 250 grid points. At point t it holds rows 4000 t … 4000 t + 3999 of the edge features e and of the
  two gathered node-feature arrays s and r (each 1000000 × 64), and all of three 64 × 64 matrices W0, W1, W2 and three
  rows of 64 numbers: a bias b, a scale and a shift. On that block of rows it forms e · W0 + s · W1 + r · W2 + b, each
  product accumulated into zeros and the three added from the left, writes it back as block t of the first output, adds
  e, normalises every row of 64 to zero mean and unit variance, multiplies by the scale, adds the shift, and writes that
  back as block t of the second output.

  Every entry of either result depends on its own row of e, s, r only. So the block a point writes is the same block
  of rows of ONE function of the whole arrays — the edge map, and the normalised residual sum, of the specification — and
  since the 250 blocks of 4000 rows cover the 1000000 rows, each output array ends holding that function. Three steps:
  the block's arithmetic read entry by entry; a block's row p at point t is the array's row 4000 t + p, and a resident
  window's one block is its whole array; every row r lies in the block of point r / 4000.
-/
import proofs.«118604_j17901423690016_1_alg».proof.Proof.Gen.KernelIdeal.Frame
import proofs.«118604_j17901423690016_1_alg».proof.Proof.Spec
import proofs.«118604_j17901423690016_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeValue

open Cert.KernelIdeal Cert.KernelIdeal.Gen Cert.GT Idealize.ShloMosaic Idealize.ShloMosaic.ValueIdx Idealize.ShloMosaic.TcCoe Idealize.SL.Sem

/-! ## Layout operations that keep a unit column, read at a row and a column -/

/-- A vector of `a` entries recast as a column reads, at row `p`, the vector's entry `p`. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column broadcast along the rows reads, at row `p` and any column, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The block's three operations that are not entrywise -/

/-- The product's dimension numbers are those of a plain 4000 × 64 by 64 × 64 product. -/
theorem dot_eq_plain : dot_S4000x64_S64x64_S4000x64_1_0_0_1_n_n = DotDims.plain 4000 64 64 := rfl

/-- A block's product with a 64 × 64 matrix, accumulated into zeros, at row `p` and column `q`: the sum over `k` of
    the block's entry (p, k) times the matrix's entry (k, q). -/
theorem matmul_block_apply {φ₁ φ₂ : FTy} (A : FVec Ideal S4000x64 φ₁) (B : FVec Ideal S64x64 φ₂) (p : Fin 4000) (q : Fin 64) :
    matmul dot_S4000x64_S64x64_S4000x64_1_0_0_1_n_n none A B (constant (F := Ideal) S4000x64 .f32 0x00000000#32) (ix2 p q)
      = ∑ k : Fin 64, A (ix2 p k) * B (ix2 k q) :=
  Cert.LibDotPlain.matmul_zero_plain 4000 64 64 none A B p q

/-- The sum along the 64 columns of a block, at row `p`. -/
theorem rowSum_block_apply (x : FVec Ideal S4000x64 .f32) (hφ : FKind.Formats .f32)
    (hacc : (0x00000000#32 : BitVec 32) = 0x00000000#32) (p : Fin 4000) :
    multiReduction .add [1] S4000 x 0x00000000#32 reduces_S4000x64_S4000 hφ hacc (ix1 p)
      = ∑ k : Fin 64, x (ix2 p k) := by
  refine (Ideal.multiReduction_add_single x 0x00000000#32 reduces_S4000x64_S4000 hφ hacc (ix1 p)).trans ?_
  show ∑ k : Fin 64, x (reduces_S4000x64_S4000.lift (ix1 p) k) = _
  refine Finset.sum_congr rfl fun k _ => congrArg x (funext fun a => Fin.ext ?_)
  match a with
  | ⟨0, _⟩ => rfl
  | ⟨1, _⟩ => rfl

/-- The reciprocal square root of an array, entry by entry. -/
theorem rsqrt_apply {s : Shape} {φ : FTy} (a : FVec Ideal s φ) (i : s.Idx) : rsqrt a i = Ideal.rsqrt (a i) := rfl

/-! ## The block's arithmetic, entry by entry

The kernel's body, on one block of 4000 rows, is the edge update and the normalisation of the specification read on
the block: the three products into zero accumulators are three sums of 64 products, added from the left, the bias row
is repeated down the rows; the row mean is the row sum over 64.0, the variance the mean of the squared deviations, and
the reciprocal square root, the scale row and the shift row follow. Narrowing an operand before a product changes
nothing over the extended reals. -/

/-- The body's affine map on a block is the specification's edge map on the block. -/
theorem edgeMap_block (x0 x1 x2 : Vec Ideal S4000x64 .f32) (x3 x4 x5 : Vec Ideal S64x64 .f32) (x6 : Vec Ideal S1x64 .f32) :
    k0_pay2 x0 x1 x2 x3 x4 x5 x6 = edgeNewK (R := 4000) x0 x1 x2 x3 x4 x5 x6 := by
  funext j
  obtain ⟨p, q, rfl⟩ : ∃ (p : Fin 4000) (q : Fin 64), j = ix2 p q := ⟨j 0, j 1, eq_ix2 j⟩
  unfold k0_pay2
  simp only [addf_apply, shapeCast_self, broadcastTo_1b_ab_apply, matmul_block_apply, truncf_apply]
  rfl

/-- The residual sum on a block. -/
theorem residual_block (x0 x1 x2 : Vec Ideal S4000x64 .f32) (x3 x4 x5 : Vec Ideal S64x64 .f32) (x6 : Vec Ideal S1x64 .f32) :
    k0_pay3 x0 x1 x2 x3 x4 x5 x6 = addM (edgeNewK (R := 4000) x0 x1 x2 x3 x4 x5 x6) x0 := by
  unfold k0_pay3
  rw [edgeMap_block]
  rfl

/-- The row means of the residual sum, kept as a column. -/
theorem rowMean_block (x0 x1 x2 : Vec Ideal S4000x64 .f32) (x3 x4 x5 : Vec Ideal S64x64 .f32) (x6 : Vec Ideal S1x64 .f32)
    (p : Fin 4000) (u : Fin 1) :
    k0_pay4 x0 x1 x2 x3 x4 x5 x6 (ix2 p u)
      = mean (fun k => addM (edgeNewK (R := 4000) x0 x1 x2 x3 x4 x5 x6) x0 (ix2 p k)) := by
  unfold k0_pay4
  simp only [divf_apply, broadcast_apply, shapeCast_a_a1_apply]
  rw [rowSum_block_apply, residual_block]
  rfl

/-- The row sums of the squared deviations from the row mean. -/
theorem sqDev_block (x0 x1 x2 : Vec Ideal S4000x64 .f32) (x3 x4 x5 : Vec Ideal S64x64 .f32) (x6 : Vec Ideal S1x64 .f32)
    (p : Fin 4000) :
    k0_pay5 x0 x1 x2 x3 x4 x5 x6 (ix1 p)
      = ∑ k : Fin 64,
          (addM (edgeNewK (R := 4000) x0 x1 x2 x3 x4 x5 x6) x0 (ix2 p k)
              - mean (fun k => addM (edgeNewK (R := 4000) x0 x1 x2 x3 x4 x5 x6) x0 (ix2 p k)))
            * (addM (edgeNewK (R := 4000) x0 x1 x2 x3 x4 x5 x6) x0 (ix2 p k)
              - mean (fun k => addM (edgeNewK (R := 4000) x0 x1 x2 x3 x4 x5 x6) x0 (ix2 p k))) := by
  unfold k0_pay5
  rw [rowSum_block_apply]
  simp only [mulf_apply, subf_apply, broadcastTo_a1_ab_apply, rowMean_block]
  rw [residual_block]

/-- The last stretch of the body, from the residual sum, its row means and its rows' sums of squared deviations. -/
theorem normalise_tail (v27 : FVec Ideal S4000x64 .f32) (v31 : FVec Ideal S4000x1 .f32) (v35 : FVec Ideal S4000 .f32)
    (v46 v50 : Vec Ideal S1x64 .f32) (p : Fin 4000) (q : Fin 64) :
    k0_pay1 v27 v31 v35 v46 v50 (ix2 p q)
      = (v27 (ix2 p q) - v31 (ix2 p (0 : Fin 1))) * Ideal.rsqrt (Ideal.div (v35 (ix1 p)) c64 + ceps)
          * v46 (ix2 (0 : Fin 1) q) + v50 (ix2 (0 : Fin 1) q) := by
  unfold k0_pay1
  simp only [addf_apply, mulf_apply, subf_apply, divf_apply, rsqrt_apply, broadcast_apply, shapeCast_self,
    broadcastTo_1b_ab_apply, broadcastTo_a1_ab_apply, shapeCast_a_a1_apply]
  rfl

/-- The body's normalised residual sum on a block is the specification's on the block. -/
theorem normalised_block (x0 x1 x2 : Vec Ideal S4000x64 .f32) (x3 x4 x5 : Vec Ideal S64x64 .f32) (x6 x7 x8 : Vec Ideal S1x64 .f32) :
    k0_pay1 (k0_pay3 x0 x1 x2 x3 x4 x5 x6) (k0_pay4 x0 x1 x2 x3 x4 x5 x6) (k0_pay5 x0 x1 x2 x3 x4 x5 x6) x7 x8
      = lnK (addM (edgeNewK (R := 4000) x0 x1 x2 x3 x4 x5 x6) x0) x7 x8 := by
  funext j
  obtain ⟨p, q, rfl⟩ : ∃ (p : Fin 4000) (q : Fin 64), j = ix2 p q := ⟨j 0, j 1, eq_ix2 j⟩
  rw [normalise_tail, rowMean_block, sqDev_block, residual_block, lnK_apply]
  rfl

/-! ## From blocks to arrays

The grid has 250 points. At point `t` the three row-wise inputs and the two outputs are at block (t, 0) of 4000 rows of
64 columns, so row `p` of the block is row `4000 * t + p` of the array; the three 64 × 64 matrices and the three rows of
64 are at block (0, 0) of their own size, so their one block is the whole array. -/

variable (V : (c : Dev nD) → (b : Ref sig .tc) → Buf (Elt Ideal) ((c : Thread nD τ).loc b))

/-- The offsets (0, 0), spelt as a pair and as a constant function. -/
theorem zeroOffsets : (![0, 0] : Fin 2 → Nat) = fun _ => 0 := funext fun a => by fin_cases a <;> rfl

/-- The block index of every window at every one of the grid's 250 points: the point's number and 0 for the row-wise
    windows, 0 and 0 for the others. -/
theorem blockIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- A grid point's number is below 250. -/
theorem point_lt (t : Fin cfg0.N) : t.val < 250 := by
  have h : cfg0.N = 250 := N_0
  have := t.isLt
  omega

/-- Row `p` of input window 0's block at point `t` is row `4000 * t + p` of its array. -/
theorem rowBlock0_apply (c : Dev nD) (t : Fin cfg0.N) (p : Fin 4000) (k : Fin 64) (P : Fin 1000000)
    (hP : P.val = 4000 * t.val + p.val) :
    (iblk0 V c 0 t : Vec Ideal S4000x64 .f32) (ix2 p k) = (V c main_arg1 : Mat 1000000 64) (ix2 P k) := by
  unfold iblk0
  rw [View.read_apply]
  show V c main_arg1 _ = V c main_arg1 _
  congr 1
  funext a
  apply Fin.ext
  match a with
  | ⟨0, _⟩ => show win0_0.index t (0 : Fin 2) * 4000 + 1 * p.val = P.val; rw [(blockIndex t).1.1, hP]; omega
  | ⟨1, _⟩ => show win0_0.index t (1 : Fin 2) * 64 + 1 * k.val = k.val; rw [(blockIndex t).1.2]; omega

/-- Row `p` of input window 1's block at point `t` is row `4000 * t + p` of its array. -/
theorem rowBlock1_apply (c : Dev nD) (t : Fin cfg0.N) (p : Fin 4000) (k : Fin 64) (P : Fin 1000000)
    (hP : P.val = 4000 * t.val + p.val) :
    (iblk0 V c 1 t : Vec Ideal S4000x64 .f32) (ix2 p k) = (V c main_v6 : Mat 1000000 64) (ix2 P k) := by
  unfold iblk0
  rw [View.read_apply]
  show V c main_v6 _ = V c main_v6 _
  congr 1
  funext a
  apply Fin.ext
  match a with
  | ⟨0, _⟩ => show win0_1.index t (0 : Fin 2) * 4000 + 1 * p.val = P.val; rw [(blockIndex t).2.1.1, hP]; omega
  | ⟨1, _⟩ => show win0_1.index t (1 : Fin 2) * 64 + 1 * k.val = k.val; rw [(blockIndex t).2.1.2]; omega

/-- Row `p` of input window 2's block at point `t` is row `4000 * t + p` of its array. -/
theorem rowBlock2_apply (c : Dev nD) (t : Fin cfg0.N) (p : Fin 4000) (k : Fin 64) (P : Fin 1000000)
    (hP : P.val = 4000 * t.val + p.val) :
    (iblk0 V c 2 t : Vec Ideal S4000x64 .f32) (ix2 p k) = (V c main_v13 : Mat 1000000 64) (ix2 P k) := by
  unfold iblk0
  rw [View.read_apply]
  show V c main_v13 _ = V c main_v13 _
  congr 1
  funext a
  apply Fin.ext
  match a with
  | ⟨0, _⟩ => show win0_2.index t (0 : Fin 2) * 4000 + 1 * p.val = P.val; rw [(blockIndex t).2.2.1.1, hP]; omega
  | ⟨1, _⟩ => show win0_2.index t (1 : Fin 2) * 64 + 1 * k.val = k.val; rw [(blockIndex t).2.2.1.2]; omega

/-- Input window 3's one block is its whole array. -/
theorem wholeBlock3_eq (c : Dev nD) (t : Fin cfg0.N) :
    (iblk0 V c 3 t : Vec Ideal S64x64 .f32) = (V c main_v14 : Mat 64 64) := by
  funext y
  unfold iblk0
  rw [View.read_apply]
  show V c main_v14 _ = V c main_v14 _
  congr 1
  funext a
  apply Fin.ext
  match a with
  | ⟨0, _⟩ => show win0_3.index t (0 : Fin 2) * 64 + 1 * (y 0).val = (y 0).val; rw [(blockIndex t).2.2.2.1.1]; omega
  | ⟨1, _⟩ => show win0_3.index t (1 : Fin 2) * 64 + 1 * (y 1).val = (y 1).val; rw [(blockIndex t).2.2.2.1.2]; omega

/-- Input window 4's one block is its whole array. -/
theorem wholeBlock4_eq (c : Dev nD) (t : Fin cfg0.N) :
    (iblk0 V c 4 t : Vec Ideal S64x64 .f32) = (V c main_v15 : Mat 64 64) := by
  funext y
  unfold iblk0
  rw [View.read_apply]
  show V c main_v15 _ = V c main_v15 _
  congr 1
  funext a
  apply Fin.ext
  match a with
  | ⟨0, _⟩ => show win0_4.index t (0 : Fin 2) * 64 + 1 * (y 0).val = (y 0).val; rw [(blockIndex t).2.2.2.2.1.1]; omega
  | ⟨1, _⟩ => show win0_4.index t (1 : Fin 2) * 64 + 1 * (y 1).val = (y 1).val; rw [(blockIndex t).2.2.2.2.1.2]; omega

/-- Input window 5's one block is its whole array. -/
theorem wholeBlock5_eq (c : Dev nD) (t : Fin cfg0.N) :
    (iblk0 V c 5 t : Vec Ideal S64x64 .f32) = (V c main_v16 : Mat 64 64) := by
  funext y
  unfold iblk0
  rw [View.read_apply]
  show V c main_v16 _ = V c main_v16 _
  congr 1
  funext a
  apply Fin.ext
  match a with
  | ⟨0, _⟩ => show win0_5.index t (0 : Fin 2) * 64 + 1 * (y 0).val = (y 0).val; rw [(blockIndex t).2.2.2.2.2.1.1]; omega
  | ⟨1, _⟩ => show win0_5.index t (1 : Fin 2) * 64 + 1 * (y 1).val = (y 1).val; rw [(blockIndex t).2.2.2.2.2.1.2]; omega

/-- Input window 6's one block is its whole array. -/
theorem wholeBlock6_eq (c : Dev nD) (t : Fin cfg0.N) :
    (iblk0 V c 6 t : Vec Ideal S1x64 .f32) = (V c main_v17 : Mat 1 64) := by
  funext y
  unfold iblk0
  rw [View.read_apply]
  show V c main_v17 _ = V c main_v17 _
  congr 1
  funext a
  apply Fin.ext
  match a with
  | ⟨0, _⟩ => show win0_6.index t (0 : Fin 2) * 1 + 1 * (y 0).val = (y 0).val; rw [(blockIndex t).2.2.2.2.2.2.1.1]; omega
  | ⟨1, _⟩ => show win0_6.index t (1 : Fin 2) * 64 + 1 * (y 1).val = (y 1).val; rw [(blockIndex t).2.2.2.2.2.2.1.2]; omega

/-- Input window 7's one block is its whole array. -/
theorem wholeBlock7_eq (c : Dev nD) (t : Fin cfg0.N) :
    (iblk0 V c 7 t : Vec Ideal S1x64 .f32) = (V c main_v18 : Mat 1 64) := by
  funext y
  unfold iblk0
  rw [View.read_apply]
  show V c main_v18 _ = V c main_v18 _
  congr 1
  funext a
  apply Fin.ext
  match a with
  | ⟨0, _⟩ => show win0_7.index t (0 : Fin 2) * 1 + 1 * (y 0).val = (y 0).val; rw [(blockIndex t).2.2.2.2.2.2.2.1.1]; omega
  | ⟨1, _⟩ => show win0_7.index t (1 : Fin 2) * 64 + 1 * (y 1).val = (y 1).val; rw [(blockIndex t).2.2.2.2.2.2.2.1.2]; omega

/-- Input window 8's one block is its whole array. -/
theorem wholeBlock8_eq (c : Dev nD) (t : Fin cfg0.N) :
    (iblk0 V c 8 t : Vec Ideal S1x64 .f32) = (V c main_v19 : Mat 1 64) := by
  funext y
  unfold iblk0
  rw [View.read_apply]
  show V c main_v19 _ = V c main_v19 _
  congr 1
  funext a
  apply Fin.ext
  match a with
  | ⟨0, _⟩ => show win0_8.index t (0 : Fin 2) * 1 + 1 * (y 0).val = (y 0).val; rw [(blockIndex t).2.2.2.2.2.2.2.2.1.1]; omega
  | ⟨1, _⟩ => show win0_8.index t (1 : Fin 2) * 64 + 1 * (y 1).val = (y 1).val; rw [(blockIndex t).2.2.2.2.2.2.2.2.1.2]; omega

/-- An array read through output window 9's block at point `t`: row `p` of the block is row `4000 * t + p`. -/
theorem readOut9_apply (t : Fin cfg0.N) (G : Mat 1000000 64) (p : Fin 4000) (q : Fin 64) (P : Fin 1000000)
    (hP : P.val = 4000 * t.val + p.val) :
    (((cfg0.win 9).blk t).view.read (Elt Ideal) G : Vec Ideal S4000x64 .f32) (ix2 p q) = G (ix2 P q) := by
  rw [View.read_apply]
  show G _ = G _
  congr 1
  funext a
  apply Fin.ext
  match a with
  | ⟨0, _⟩ => show win0_9.index t (0 : Fin 2) * 4000 + 1 * p.val = P.val; rw [(blockIndex t).2.2.2.2.2.2.2.2.2.1.1, hP]; omega
  | ⟨1, _⟩ => show win0_9.index t (1 : Fin 2) * 64 + 1 * q.val = q.val; rw [(blockIndex t).2.2.2.2.2.2.2.2.2.1.2]; omega

/-- An array read through output window 10's block at point `t`: row `p` of the block is row `4000 * t + p`. -/
theorem readOut10_apply (t : Fin cfg0.N) (G : Mat 1000000 64) (p : Fin 4000) (q : Fin 64) (P : Fin 1000000)
    (hP : P.val = 4000 * t.val + p.val) :
    (((cfg0.win 10).blk t).view.read (Elt Ideal) G : Vec Ideal S4000x64 .f32) (ix2 p q) = G (ix2 P q) := by
  rw [View.read_apply]
  show G _ = G _
  congr 1
  funext a
  apply Fin.ext
  match a with
  | ⟨0, _⟩ => show win0_10.index t (0 : Fin 2) * 4000 + 1 * p.val = P.val; rw [(blockIndex t).2.2.2.2.2.2.2.2.2.2.1, hP]; omega
  | ⟨1, _⟩ => show win0_10.index t (1 : Fin 2) * 64 + 1 * q.val = q.val; rw [(blockIndex t).2.2.2.2.2.2.2.2.2.2.2]; omega

/-! ## What each point writes back, and the arrays after the last point -/

/-- The edge map at row `p` of blocks is the edge map at row `P` of arrays, when row `p` of each row-wise block is row
    `P` of its array and the matrices and the bias row are the same. -/
theorem edgeNewK_blocks {R R' : Nat} (e s r : Mat R 64) (e' s' r' : Mat R' 64) (W0 W1 W2 W0' W1' W2' : Mat 64 64)
    (b b' : Mat 1 64) (p : Fin R) (P : Fin R') (q : Fin 64)
    (he : ∀ k, e (ix2 p k) = e' (ix2 P k)) (hs : ∀ k, s (ix2 p k) = s' (ix2 P k)) (hr : ∀ k, r (ix2 p k) = r' (ix2 P k))
    (h0 : W0 = W0') (h1 : W1 = W1') (h2 : W2 = W2') (hb : b = b') :
    edgeNewK e s r W0 W1 W2 b (ix2 p q) = edgeNewK e' s' r' W0' W1' W2' b' (ix2 P q) := by
  subst h0 h1 h2 hb
  exact edgeNewK_row e s r e' s' r' W0 W1 W2 b p P q he hs hr

/-- The same for the normalisation: row `p` of the block is row `P` of the array, the scale and shift rows the same. -/
theorem lnK_blocks {R R' : Nat} (x : Mat R 64) (x' : Mat R' 64) (sc bi sc' bi' : Mat 1 64) (p : Fin R) (P : Fin R')
    (q : Fin 64) (hx : ∀ k, x (ix2 p k) = x' (ix2 P k)) (hs : sc = sc') (hb : bi = bi') :
    lnK x sc bi (ix2 p q) = lnK x' sc' bi' (ix2 P q) := by
  subst hs hb
  exact lnK_row x x' sc bi p P q hx

/-- The edge map of the blocks at point `t`, at row `p`, is the edge map of the arrays at row `4000 * t + p`. -/
theorem edgeNewK_at_point (c : Dev nD) (t : Fin cfg0.N) (p : Fin 4000) (q : Fin 64) (P : Fin 1000000)
    (hP : P.val = 4000 * t.val + p.val) :
    edgeNewK (R := 4000) (iblk0 V c 0 t) (iblk0 V c 1 t) (iblk0 V c 2 t) (iblk0 V c 3 t) (iblk0 V c 4 t) (iblk0 V c 5 t) (iblk0 V c 6 t) (ix2 p q)
      = edgeNewK (R := 1000000) (V c main_arg1) (V c main_v6) (V c main_v13) (V c main_v14) (V c main_v15) (V c main_v16) (V c main_v17) (ix2 P q) :=
  edgeNewK_blocks _ _ _ _ _ _ _ _ _ _ _ _ _ _ p P q
    (fun k => rowBlock0_apply V c t p k P hP) (fun k => rowBlock1_apply V c t p k P hP) (fun k => rowBlock2_apply V c t p k P hP)
    (wholeBlock3_eq V c t) (wholeBlock4_eq V c t) (wholeBlock5_eq V c t) (wholeBlock6_eq V c t)

/-- WHAT POINT `t` WRITES BACK to the first output is block `t` of the edge map of the arrays. -/
theorem newEdges_block (c : Dev nD) (t : Fin cfg0.N) :
    (dat0 (F := Ideal) V c).flushed 9 t
      = ((cfg0.win 9).blk t).view.read (Elt Ideal) (edgeNewK (R := 1000000) (V c main_arg1) (V c main_v6) (V c main_v13) (V c main_v14) (V c main_v15) (V c main_v16) (V c main_v17)) := by
  show (cfg0.win 9).cut (grid0.coords t) ((dat0 (F := Ideal) V c).after 9 t) = _
  rw [after0_9]
  unfold out0_9
  rw [View.canon_unit_zero zeroOffsets]
  simp only [View.ld_unit_zero (S := S4000x64) zeroOffsets, View.ld_unit_zero (S := S64x64) zeroOffsets, View.ld_unit_zero (S := S1x64) zeroOffsets]
  rw [edgeMap_block]
  funext j
  obtain ⟨p, q, rfl⟩ : ∃ (p : Fin 4000) (q : Fin 64), j = ix2 p q := ⟨j 0, j 1, eq_ix2 j⟩
  have ht := point_lt t
  have hp := p.isLt
  have hP : 4000 * t.val + p.val < 1000000 := by omega
  rw [readOut9_apply t _ p q ⟨4000 * t.val + p.val, hP⟩ rfl]
  exact edgeNewK_at_point V c t p q ⟨4000 * t.val + p.val, hP⟩ rfl

/-- WHAT POINT `t` WRITES BACK to the second output is block `t` of the normalised residual sum of the arrays. -/
theorem edgesOut_block (c : Dev nD) (t : Fin cfg0.N) :
    (dat0 (F := Ideal) V c).flushed 10 t
      = ((cfg0.win 10).blk t).view.read (Elt Ideal)
          (lnK (addM (edgeNewK (R := 1000000) (V c main_arg1) (V c main_v6) (V c main_v13) (V c main_v14) (V c main_v15) (V c main_v16) (V c main_v17)) (V c main_arg1)) (V c main_v18) (V c main_v19)) := by
  show (cfg0.win 10).cut (grid0.coords t) ((dat0 (F := Ideal) V c).after 10 t) = _
  rw [after0_10]
  unfold out0_10
  rw [View.canon_unit_zero zeroOffsets]
  simp only [View.ld_unit_zero (S := S4000x64) zeroOffsets, View.ld_unit_zero (S := S64x64) zeroOffsets, View.ld_unit_zero (S := S1x64) zeroOffsets]
  rw [normalised_block]
  funext j
  obtain ⟨p, q, rfl⟩ : ∃ (p : Fin 4000) (q : Fin 64), j = ix2 p q := ⟨j 0, j 1, eq_ix2 j⟩
  have ht := point_lt t
  have hp := p.isLt
  have hP : 4000 * t.val + p.val < 1000000 := by omega
  rw [readOut10_apply t _ p q ⟨4000 * t.val + p.val, hP⟩ rfl]
  refine lnK_blocks _ _ _ _ _ _ p ⟨4000 * t.val + p.val, hP⟩ q (fun k => ?_) (wholeBlock7_eq V c t) (wholeBlock8_eq V c t)
  rw [addM_apply, addM_apply, edgeNewK_at_point V c t p k ⟨4000 * t.val + p.val, hP⟩ rfl,
    rowBlock0_apply V c t p k ⟨4000 * t.val + p.val, hP⟩ rfl]

/-- An index of output window 9's array is in point `t`'s block iff each coordinate is in the block's range. -/
theorem mem_outBlock9 (t : Fin cfg0.N) (i : S1000000x64.Idx) :
    i ∈ ((cfg0.win 9).blk t).view.set
      ↔ ∀ a : Fin 2, win0_9.index t a * S4000x64.size a ≤ (i a).val
          ∧ (i a).val < win0_9.index t a * S4000x64.size a + S4000x64.size a := by
  show i ∈ ((View.whole main_v20_0).slice (win0_9.rect t)).set ↔ _
  rw [View.set_slice_whole, Rect.mem_set_unit]
  exact Iff.rfl

/-- Every index of output window 9's array is in the block of the point its row falls in: row `r` in point `r / 4000`. -/
theorem outBlocks_cover9 (i : S1000000x64.Idx) :
    ∃ t : Fin cfg0.N, (cfg0.win 9).flush t = true ∧ i ∈ ((cfg0.win 9).blk t).view.set := by
  have hi0 : (i 0).val < 1000000 := (i 0).isLt
  have hi1 : (i 1).val < 64 := (i 1).isLt
  have hN : cfg0.N = 250 := N_0
  have ht : (i 0).val / 4000 < cfg0.N := by rw [hN]; omega
  refine ⟨⟨(i 0).val / 4000, ht⟩, flush0_9 _, ?_⟩
  rw [mem_outBlock9]
  intro a
  match a with
  | ⟨0, _⟩ =>
    show win0_9.index ⟨(i 0).val / 4000, ht⟩ (0 : Fin 2) * 4000 ≤ (i 0).val
      ∧ (i 0).val < win0_9.index ⟨(i 0).val / 4000, ht⟩ (0 : Fin 2) * 4000 + 4000
    rw [(blockIndex ⟨(i 0).val / 4000, ht⟩).2.2.2.2.2.2.2.2.2.1.1]
    show (i 0).val / 4000 * 4000 ≤ (i 0).val ∧ (i 0).val < (i 0).val / 4000 * 4000 + 4000
    omega
  | ⟨1, _⟩ =>
    show win0_9.index ⟨(i 0).val / 4000, ht⟩ (1 : Fin 2) * 64 ≤ (i 1).val
      ∧ (i 1).val < win0_9.index ⟨(i 0).val / 4000, ht⟩ (1 : Fin 2) * 64 + 64
    rw [(blockIndex ⟨(i 0).val / 4000, ht⟩).2.2.2.2.2.2.2.2.2.1.2]
    omega

/-- An index of output window 10's array is in point `t`'s block iff each coordinate is in the block's range. -/
theorem mem_outBlock10 (t : Fin cfg0.N) (i : S1000000x64.Idx) :
    i ∈ ((cfg0.win 10).blk t).view.set
      ↔ ∀ a : Fin 2, win0_10.index t a * S4000x64.size a ≤ (i a).val
          ∧ (i a).val < win0_10.index t a * S4000x64.size a + S4000x64.size a := by
  show i ∈ ((View.whole main_v20_1).slice (win0_10.rect t)).set ↔ _
  rw [View.set_slice_whole, Rect.mem_set_unit]
  exact Iff.rfl

/-- Every index of output window 10's array is in the block of the point its row falls in: row `r` in point `r / 4000`. -/
theorem outBlocks_cover10 (i : S1000000x64.Idx) :
    ∃ t : Fin cfg0.N, (cfg0.win 10).flush t = true ∧ i ∈ ((cfg0.win 10).blk t).view.set := by
  have hi0 : (i 0).val < 1000000 := (i 0).isLt
  have hi1 : (i 1).val < 64 := (i 1).isLt
  have hN : cfg0.N = 250 := N_0
  have ht : (i 0).val / 4000 < cfg0.N := by rw [hN]; omega
  refine ⟨⟨(i 0).val / 4000, ht⟩, flush0_10 _, ?_⟩
  rw [mem_outBlock10]
  intro a
  match a with
  | ⟨0, _⟩ =>
    show win0_10.index ⟨(i 0).val / 4000, ht⟩ (0 : Fin 2) * 4000 ≤ (i 0).val
      ∧ (i 0).val < win0_10.index ⟨(i 0).val / 4000, ht⟩ (0 : Fin 2) * 4000 + 4000
    rw [(blockIndex ⟨(i 0).val / 4000, ht⟩).2.2.2.2.2.2.2.2.2.2.1]
    show (i 0).val / 4000 * 4000 ≤ (i 0).val ∧ (i 0).val < (i 0).val / 4000 * 4000 + 4000
    omega
  | ⟨1, _⟩ =>
    show win0_10.index ⟨(i 0).val / 4000, ht⟩ (1 : Fin 2) * 64 ≤ (i 1).val
      ∧ (i 1).val < win0_10.index ⟨(i 0).val / 4000, ht⟩ (1 : Fin 2) * 64 + 64
    rw [(blockIndex ⟨(i 0).val / 4000, ht⟩).2.2.2.2.2.2.2.2.2.2.2]
    omega

/-- THE FIRST OUTPUT after the last point: the edge map of the arrays the region finds. -/
theorem newEdges_array (c : Dev nD) :
    (dat0 (F := Ideal) V c).arrAt 9 cfg0.N
      = edgeNewK (R := 1000000) (V c main_arg1) (V c main_v6) (V c main_v13) (V c main_v14) (V c main_v15) (V c main_v16) (V c main_v17) :=
  (dat0 (F := Ideal) V c).arrAt_eq_of_cover 9 _ (fun t _ => newEdges_block V c t) outBlocks_cover9

/-- THE SECOND OUTPUT after the last point: the normalised residual sum of the arrays the region finds. -/
theorem edgesOut_array (c : Dev nD) :
    (dat0 (F := Ideal) V c).arrAt 10 cfg0.N
      = lnK (addM (edgeNewK (R := 1000000) (V c main_arg1) (V c main_v6) (V c main_v13) (V c main_v14) (V c main_v15) (V c main_v16) (V c main_v17)) (V c main_arg1)) (V c main_v18) (V c main_v19) :=
  (dat0 (F := Ideal) V c).arrAt_eq_of_cover 10 _ (fun t _ => edgesOut_block V c t) outBlocks_cover10

end Cert.KernelIdeal.EdgeValue

end
-- ==== Proof.KernelNode.lean ====
/-
  The node kernel's output array, read off the values its ten grid points write back.

  The node kernel walks the 100000 rows of the node array in ten blocks of 10000 rows. At each block it multiplies the
  block of node rows and the block of summed edge rows by their two 64 × 64 weight matrices, adds the two products, the
  one-row bias and the block of node rows itself, and normalises every row of 64 numbers: the row less its mean, times
  the reciprocal square root of its variance plus a small constant, times the scale, plus the shift. Over the extended
  reals every operation is exact, so at row `p` and column `q` of a block this is the shared function
  `lnK (addM (nodeNewK …) …) …` of the block's rows.

  That function reads its row-wise operands only through row `p`; row `p` of block `t` of an array is row
  `10000 * t + p` of the array, and the weights, the bias, the scale and the shift are handed over whole at every point.
  So point `t` writes back block `t` of the same function of the whole arrays. Row `r` of the output lies in block
  `r / 10000`, every point writes its block back, and so the output array ends as that function of the arrays.
-/
import proofs.«118604_j17901423690016_1_alg».proof.Proof.Gen.KernelIdeal.Frame
import proofs.«118604_j17901423690016_1_alg».proof.Proof.Spec
import proofs.«118604_j17901423690016_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.NodeValue
open Cert.KernelIdeal Cert.KernelIdeal.Gen Cert.GT Idealize.ShloMosaic Idealize.ShloMosaic.ValueIdx Idealize.ShloMosaic.TcCoe Idealize.SL.Sem
open scoped BigOperators

/-! ## Layout operations of a column of row statistics, read at a row and a column -/

/-- A vector of `a` numbers recast as a column reads, at row `p`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column of `a` numbers spread over `b` columns reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along each row of an array of rows of 64 numbers, read at row `p`. -/
theorem rowSum_apply {a : ℕ} (Y : FVec Ideal ⟨2, ![a, 64]⟩ .f32)
    (h : (⟨2, ![a, 64]⟩ : Shape).Reduces [1] ⟨1, ![a]⟩) (hφ : FKind.Formats .f32)
    (hacc : (0x00000000#32 : BitVec 32) = 0x00000000#32) (p : Fin a) :
    multiReduction .add [1] ⟨1, ![a]⟩ Y 0x00000000#32 h hφ hacc (ix1 p) = ∑ k : Fin 64, Y (ix2 p k) := by
  refine (Ideal.multiReduction_add_single Y 0x00000000#32 h hφ hacc (ix1 p)).trans ?_
  refine Finset.sum_congr rfl fun k _ => congrArg Y ?_
  funext c
  apply Fin.ext
  match c with
  | ⟨0, _⟩ => rfl
  | ⟨1, _⟩ => rfl

/-- The node kernel's product record is the plain 10000 × 64 by 64 × 64 product. -/
theorem dot_plain : dot_S10000x64_S64x64_S10000x64_1_0_0_1_n_n = DotDims.plain 10000 64 64 := rfl

/-- A block of 10000 rows times a 64 × 64 matrix, accumulated into zeros, at `(p, q)`. -/
theorem matmul_apply {φ₁ φ₂ : FTy} (A : FVec Ideal S10000x64 φ₁) (B : FVec Ideal S64x64 φ₂) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  rw [dot_plain]
  exact Cert.LibDotPlain.matmul_zero_plain 10000 64 64 none A B p q

/-! ## The body's arithmetic at a row and a column -/

/-- The reciprocal square root of an array, read at an index. -/
theorem rsqrt_apply {s : Shape} {φ : FTy} (a : FVec Ideal s φ) (i : s.Idx) : rsqrt a i = Ideal.rsqrt (a i) := rfl

/-- What the body stores, from the blocks it loads: the node update of the block's rows, plus the block, with every
    row normalised. The two products into zero accumulators are sums of 64 products, the changes of format are the
    identity on extended reals, the row sums are sums over the 64 columns, and the row statistics, kept as a column and
    spread back over the 64 columns, are read at the row. -/
theorem payload_eq (x0 x1 : Vec Ideal S10000x64 .f32) (x2 x3 : Vec Ideal S64x64 .f32) (x4 x5 x6 : Vec Ideal S1x64 .f32) :
    k1_pay1 (F := Ideal) (k1_pay2 x0 x1 x2 x3 x4) (k1_pay3 x5) x6
      = lnK (addM (nodeNewK (R := 10000) x0 x1 x2 x3 x4) x0) x5 x6 := by
  funext j
  obtain ⟨p, q, rfl⟩ : ∃ (p : Fin 10000) (q : Fin 64), j = ix2 p q := ⟨j 0, j 1, eq_ix2 j⟩
  unfold k1_pay1 k1_pay2 k1_pay3
  simp only [addf_apply, subf_apply, mulf_apply, divf_apply, broadcast_apply, shapeCast_self,
    broadcastTo_1b_ab_apply, broadcastTo_a1_ab_apply, shapeCast_a_a1_apply, rsqrt_apply, matmul_apply, truncf_apply]
  rw [rowSum_apply, rowSum_apply]
  simp only [addf_apply, subf_apply, mulf_apply, divf_apply, broadcast_apply, shapeCast_self,
    broadcastTo_1b_ab_apply, broadcastTo_a1_ab_apply, shapeCast_a_a1_apply, rsqrt_apply, matmul_apply, truncf_apply]
  rw [rowSum_apply]
  simp only [addf_apply, subf_apply, mulf_apply, divf_apply, broadcast_apply, shapeCast_self,
    broadcastTo_1b_ab_apply, broadcastTo_a1_ab_apply, shapeCast_a_a1_apply, rsqrt_apply, matmul_apply, truncf_apply]
  rw [lnK_apply]
  unfold ln mean
  simp only [addM_apply, nodeNewK_apply]
  rfl

/-! ## A block of rows of the arrays -/

/-- The normalised node update of a block of 10000 rows, when row `p` of each block operand is row
    `10000 * n + p` of the array operand, is at `(p, q)` the normalised node update of the arrays at
    `(10000 * n + p, q)`. -/
theorem block_value (X0 X1 : Mat 100000 64) (W0 W1 : Mat 64 64) (b sc bi : Mat 1 64) (x0 x1 : Mat 10000 64) (n : ℕ)
    (h0 : ∀ (p : Fin 10000) (P : Fin 100000), P.val = 10000 * n + p.val → ∀ k : Fin 64, x0 (ix2 p k) = X0 (ix2 P k))
    (h1 : ∀ (p : Fin 10000) (P : Fin 100000), P.val = 10000 * n + p.val → ∀ k : Fin 64, x1 (ix2 p k) = X1 (ix2 P k))
    (j : (⟨2, ![10000, 64]⟩ : Shape).Idx) (i : (⟨2, ![100000, 64]⟩ : Shape).Idx)
    (hi0 : (i 0).val = 10000 * n + (j 0).val) (hi1 : (i 1).val = (j 1).val) :
    lnK (addM (nodeNewK x0 x1 W0 W1 b) x0) sc bi j = lnK (addM (nodeNewK X0 X1 W0 W1 b) X0) sc bi i := by
  obtain ⟨p, q, rfl⟩ : ∃ (p : Fin 10000) (q : Fin 64), j = ix2 p q := ⟨j 0, j 1, eq_ix2 j⟩
  obtain ⟨P, Q, rfl⟩ : ∃ (P : Fin 100000) (Q : Fin 64), i = ix2 P Q := ⟨i 0, i 1, eq_ix2 i⟩
  obtain rfl : Q = q := Fin.ext hi1
  refine lnK_row _ _ sc bi p P Q fun k => ?_
  rw [addM_apply, addM_apply, nodeNewK_row x0 x1 X0 X1 W0 W1 b p P k (h0 p P hi0) (h1 p P hi0), h0 p P hi0 k]

/-! ## The windows' blocks, read off the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the ten grid points: the two row-blocked inputs and the output are at block
    `(t, 0)`, the five resident inputs at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of window 0's block at point `t` is row `10000 * t + p` of its array. -/
theorem block0_row (c : Dev nD) (t : Fin cfg1.N) (p : Fin 10000) (P : Fin 100000) (hP : P.val = 10000 * t.val + p.val)
    (k : Fin 64) :
    (iblk1 (F := Ideal) V c 0 t : Vec Ideal S10000x64 .f32) (ix2 p k) = (V c main_arg0 : Mat 100000 64) (ix2 P k) := by
  obtain ⟨e0, e1, -⟩ := index_facts t
  unfold iblk1
  rw [View.read_apply]
  show V c main_arg0 _ = V c main_arg0 _
  congr 1
  funext a
  apply Fin.ext
  match a with
  | ⟨0, _⟩ => show win1_0.index t (0 : Fin 2) * 10000 + 1 * p.val = P.val; rw [e0, hP]; omega
  | ⟨1, _⟩ => show win1_0.index t (1 : Fin 2) * 64 + 1 * k.val = k.val; rw [e1]; omega

/-- Row `p` of window 1's block at point `t` is row `10000 * t + p` of its array. -/
theorem block1_row (c : Dev nD) (t : Fin cfg1.N) (p : Fin 10000) (P : Fin 100000) (hP : P.val = 10000 * t.val + p.val)
    (k : Fin 64) :
    (iblk1 (F := Ideal) V c 1 t : Vec Ideal S10000x64 .f32) (ix2 p k) = (V c main_v23 : Mat 100000 64) (ix2 P k) := by
  obtain ⟨-, -, e0, e1, -⟩ := index_facts t
  unfold iblk1
  rw [View.read_apply]
  show V c main_v23 _ = V c main_v23 _
  congr 1
  funext a
  apply Fin.ext
  match a with
  | ⟨0, _⟩ => show win1_1.index t (0 : Fin 2) * 10000 + 1 * p.val = P.val; rw [e0, hP]; omega
  | ⟨1, _⟩ => show win1_1.index t (1 : Fin 2) * 64 + 1 * k.val = k.val; rw [e1]; omega

/-- A resident window's one block is its whole array. -/
theorem block2_eq (c : Dev nD) (t : Fin cfg1.N) :
    (iblk1 (F := Ideal) V c 2 t : Vec Ideal S64x64 .f32) = (V c main_v24 : Mat 64 64) := by
  obtain ⟨-, -, -, -, e0, e1, -⟩ := index_facts t
  funext x
  unfold iblk1
  rw [View.read_apply]
  show V c main_v24 _ = V c main_v24 x
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

theorem block3_eq (c : Dev nD) (t : Fin cfg1.N) :
    (iblk1 (F := Ideal) V c 3 t : Vec Ideal S64x64 .f32) = (V c main_v25 : Mat 64 64) := by
  obtain ⟨-, -, -, -, -, -, e0, e1, -⟩ := index_facts t
  funext x
  unfold iblk1
  rw [View.read_apply]
  show V c main_v25 _ = V c main_v25 x
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

theorem block4_eq (c : Dev nD) (t : Fin cfg1.N) :
    (iblk1 (F := Ideal) V c 4 t : Vec Ideal S1x64 .f32) = (V c main_v26 : Mat 1 64) := by
  obtain ⟨-, -, -, -, -, -, -, -, e0, e1, -⟩ := index_facts t
  funext x
  unfold iblk1
  rw [View.read_apply]
  show V c main_v26 _ = V c main_v26 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

theorem block5_eq (c : Dev nD) (t : Fin cfg1.N) :
    (iblk1 (F := Ideal) V c 5 t : Vec Ideal S1x64 .f32) = (V c main_v27 : Mat 1 64) := by
  obtain ⟨-, -, -, -, -, -, -, -, -, -, e0, e1, -⟩ := index_facts t
  funext x
  unfold iblk1
  rw [View.read_apply]
  show V c main_v27 _ = V c main_v27 x
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 64 + 1 * (x 1).val = (x 1).val; rw [e1]; omega

theorem block6_eq (c : Dev nD) (t : Fin cfg1.N) :
    (iblk1 (F := Ideal) V c 6 t : Vec Ideal S1x64 .f32) = (V c main_v28 : Mat 1 64) := by
  obtain ⟨-, -, -, -, -, -, -, -, -, -, -, -, e0, e1, -⟩ := index_facts t
  funext x
  unfold iblk1
  rw [View.read_apply]
  show V c main_v28 _ = V c main_v28 x
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 64 + 1 * (x 1).val = (x 1).val; rw [e1]; omega

/-! ## What each point writes back, and the array after the run -/

/-- Point `t` writes back block `t` of the normalised node update of the arrays: the body's one store through the whole
    buffer leaves its payload, each load through the whole buffer reads the window's block, the resident blocks are
    their arrays, and row `p` of the two row-blocked inputs' blocks and of the output's block is row `10000 * t + p`. -/
theorem flushed_eq (c : Dev nD) (t : Fin cfg1.N) :
    (dat1 (F := Ideal) V c).flushed 7 t
      = ((cfg1.win 7).blk t).view.read (Elt Ideal)
          (lnK (addM (nodeNewK (R := 100000) (V c main_arg0) (V c main_v23) (V c main_v24) (V c main_v25) (V c main_v26))
            (V c main_arg0)) (V c main_v27) (V c main_v28)) := by
  show (cfg1.win 7).cut (grid1.coords t) ((dat1 V c).after 7 t) = _
  rw [after1_7]
  unfold out1_7
  rw [View.canon_unit_zero zero_offsets]
  simp only [View.ld_unit_zero (S := S10000x64) zero_offsets, View.ld_unit_zero (S := S64x64) zero_offsets,
    View.ld_unit_zero (S := S1x64) zero_offsets]
  rw [payload_eq, block2_eq V c t, block3_eq V c t, block4_eq V c t, block5_eq V c t, block6_eq V c t]
  obtain ⟨-, -, -, -, -, -, -, -, -, -, -, -, -, -, e0, e1⟩ := index_facts t
  funext j
  show _ = lnK (addM (nodeNewK (R := 100000) (V c main_arg0) (V c main_v23) (V c main_v24) (V c main_v25) (V c main_v26))
            (V c main_arg0)) (V c main_v27) (V c main_v28) (((cfg1.win 7).blk t).view.emb j)
  refine block_value _ _ _ _ _ _ _ _ _ t.val (block0_row V c t) (block1_row V c t) _ _ ?_ ?_
  · show win1_7.index t (0 : Fin 2) * 10000 + 1 * (j 0).val = 10000 * t.val + (j 0).val
    rw [e0]; omega
  · show win1_7.index t (1 : Fin 2) * 64 + 1 * (j 1).val = (j 1).val
    rw [e1]; omega

/-- An index of the output array is in point `t`'s block iff each coordinate is in the block's range on its axis. -/
theorem mem_block (t : Fin cfg1.N) (i : S100000x64.Idx) :
    i ∈ ((cfg1.win 7).blk t).view.set
      ↔ ∀ a : Fin 2, win1_7.index t a * S10000x64.size a ≤ (i a).val
          ∧ (i a).val < win1_7.index t a * S10000x64.size a + S10000x64.size a := by
  show i ∈ ((View.whole main_v29).slice (win1_7.rect t)).set ↔ _
  rw [View.set_slice_whole, Rect.mem_set_unit]
  exact Iff.rfl

/-- The output array after the ten points: the normalised node update of the arrays as the region finds them. Row `r`
    lies in the block of point `r / 10000`, and every point writes its block back. -/
theorem nodesOut_array (c : Dev nD) :
    (dat1 (F := Ideal) V c).arrAt 7 cfg1.N
      = lnK (addM (nodeNewK (R := 100000) (V c main_arg0) (V c main_v23) (V c main_v24) (V c main_v25) (V c main_v26))
          (V c main_arg0)) (V c main_v27) (V c main_v28) :=
  (dat1 V c).arrAt_eq_of_cover 7 _ (fun t _ => flushed_eq V c t) fun i => by
    have hi0 : (i 0).val < 100000 := (i 0).isLt
    have hi1 : (i 1).val < 64 := (i 1).isLt
    have hN : cfg1.N = 10 := rfl
    obtain ⟨t, ht⟩ : ∃ t : Fin cfg1.N, t.val = (i 0).val / 10000 := ⟨⟨(i 0).val / 10000, by rw [hN]; omega⟩, rfl⟩
    obtain ⟨-, -, -, -, -, -, -, -, -, -, -, -, -, -, e0, e1⟩ := index_facts t
    refine ⟨t, flush1_7 t, ?_⟩
    rw [mem_block]
    intro a
    match a with
    | ⟨0, _⟩ =>
      show win1_7.index t (0 : Fin 2) * 10000 ≤ (i 0).val ∧ (i 0).val < win1_7.index t (0 : Fin 2) * 10000 + 10000
      rw [e0, ht]; omega
    | ⟨1, _⟩ =>
      show win1_7.index t (1 : Fin 2) * 64 ≤ (i 1).val ∧ (i 1).val < win1_7.index t (1 : Fin 2) * 64 + 64
      rw [e1]; omega

end Cert.KernelIdeal.NodeValue

end
-- ==== Proof.KernelValue.lean ====
/-
  The kernel program's run with its two results as functions of the argument arrays.

  The edge result lies in the edge kernel's second output array, which nothing later writes; the node result in the
  node kernel's output array. Each kernel's output array is its row-wise function of the arrays the kernel finds in
  its operands; those are the argument arrays themselves, the gathered node rows, the row slices of the weight
  matrices (which put together are the weight matrix whole), the vectors recast as one-row matrices, and, for the node
  kernel, the scatter-add of the edge kernel's first output array.
-/
import proofs.«118604_j17901423690016_1_alg».proof.Proof.HostSide
import proofs.«118604_j17901423690016_1_alg».proof.Proof.RunValue
import proofs.«118604_j17901423690016_1_alg».proof.Proof.Spec
import proofs.«118604_j17901423690016_1_alg».proof.Proof.Results
import proofs.«118604_j17901423690016_1_alg».proof.Proof.KernelEdge
import proofs.«118604_j17901423690016_1_alg».proof.Proof.KernelNode

set_option maxRecDepth 16384

noncomputable section

namespace Cert.KernelIdeal.Results

open Cert.KernelIdeal Cert.KernelIdeal.Gen Cert.KernelIdeal.HostValue Cert.GT
open Idealize.ShloMosaic Idealize.ShloMosaic.TcCoe Idealize.SL.Sem

variable (m : (ℓ : Loc nD τ sig) → Buf (Elt Ideal) ℓ) (ρ : Dev nD → PrngReg)

theorem newEdges_eq (c : Dev nD) :
    (dat0 (V1 m ρ) c).arrAt 9 cfg0.N
      = newEdges (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [EdgeValue.newEdges_array, V1_arg1, V1_v6, V1_v13, V1_v14, V1_v15, V1_v16, V1_v17]
  exact edgeNewK_slices _ _ _ _ _ _ _ _ _

theorem edges_result (c : Dev nD) :
    W4 m ρ c (Proc.devRef .tc main_v20_1)
      = edgesOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  rw [W4_v20_1, EdgeValue.edgesOut_array, V1_arg1, V1_v6, V1_v13, V1_v14, V1_v15, V1_v16, V1_v17, V1_v18, V1_v19]
  unfold edgesOut newEdges
  rw [← edgeNewK_slices _ _ _ _ _ slices_S192x64_S64x64_0_0 slices_S192x64_S64x64_64_0 slices_S192x64_S64x64_128_0 shapeCasts_S64_S1x64]
  exact lnK_casts _ _ _ _ _

theorem nodes_result (c : Dev nD) :
    W4 m ρ c (Proc.devRef .tc main_v29)
      = nodesOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W4_v29, NodeValue.nodesOut_array, V3_arg0, V3_v23, V3_v24, V3_v25, V3_v26, V3_v27, V3_v28, newEdges_eq]
  unfold nodesOut
  rw [← nodeNewK_slices _ _ _ _ slices_S128x64_S64x64_0_0 slices_S128x64_S64x64_64_0 shapeCasts_S64_S1x64]
  exact lnK_casts _ _ _ _ _

/-- The run of the kernel program with each result at its function of the argument arrays. -/
theorem run : θ_run defs (onTc (τ := τ) (main (F := Ideal))) ⟨m, fun _ => 0, ρ⟩ (fun r => ∀ c : Dev nD,
      r.2.mem ((c.tc : Thread nD τ).loc main_v29) = nodesOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v20_1) = edgesOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (nodes_result m ρ c), (h c).2.1.trans (edges_result m ρ c), (h c).2.2⟩)
    (Cert.KernelIdeal.RunValue.run_named m ρ)

end Cert.KernelIdeal.Results

end
-- ==== Proof.RefValue.lean ====
/-
  The reference's two results as the shared functions of the specification, over the extended reals.

  The reference forms, for every edge, the row of 192 numbers that joins the edge's own 64 features with the 64 features
  found at each of its two end nodes, multiplies it by the whole 192 × 64 weight matrix and adds the bias. A sum over
  the 192 joined positions is three sums over 64 positions, and at the positions of each piece the joined row IS that
  piece; so the product is the edge's affine map with the weight matrix whole. The two rows found at the end nodes and
  the sum over the arriving edges enter only as arrays: nothing here depends on how they are chosen.

  The normalisation is written out by the reference one array operation at a time: the row sums (each begun at zero),
  the division by 64.0, the differences from the mean, their squares, the second row sum and division, the small
  constant, the reciprocal square root, the scale and the shift. Read at row `p` and column `q` every one of these
  depends only on row `p` of the array being normalised, and their composition is the specification's normalisation
  of that row at column `q`. The nodes are treated in the same way, with two pieces of 64 and a 128 × 64 matrix.
-/
import proofs.«118604_j17901423690016_1_alg».proof.Proof.Gen.ReferenceIdeal.Read
import proofs.«118604_j17901423690016_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.GT Idealize.ShloMosaic Idealize.ShloMosaic.ValueIdx

/-! ## The new edge features: the concatenated row times the whole weight matrix, plus the bias -/

/-- Columns 0 … 63 of the concatenated row are the edge's own features. -/
theorem v14_lo (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal))
    (p : Fin 1000000) (k : Fin 64) :
    val_main_v14 (F := Ideal) x0 x1 x2 x3 (ix2 p (lo (by decide) k)) = x1 (ix2 p k) := by
  unfold val_main_v14
  exact concatenate_apply_piece (1 : Fin S1000000x192.rank) _ _ (ix2 p (lo (by decide) k)) 0 (by show (0 : Nat) < 3; omega)
    S1000000x64 x1 rfl rfl 0 rfl (ix2 p k)
    (fun b hb => by match b with | ⟨0, _⟩ => rfl | ⟨1, _⟩ => exact absurd rfl hb)
    (Nat.zero_add _)

/-- Columns 64 … 127 of the concatenated row are the features gathered at the edge's first end. -/
theorem v14_mid (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal))
    (p : Fin 1000000) (k : Fin 64) :
    val_main_v14 (F := Ideal) x0 x1 x2 x3 (ix2 p (mid (by decide) k)) = val_main_v6 (F := Ideal) x0 x2 (ix2 p k) := by
  unfold val_main_v14
  exact concatenate_apply_piece (1 : Fin S1000000x192.rank) _ _ (ix2 p (mid (by decide) k)) 1 (by show (1 : Nat) < 3; omega)
    S1000000x64 (val_main_v6 (F := Ideal) x0 x2) rfl rfl 64 rfl (ix2 p k)
    (fun b hb => by match b with | ⟨0, _⟩ => rfl | ⟨1, _⟩ => exact absurd rfl hb)
    rfl

/-- Columns 128 … 191 of the concatenated row are the features gathered at the edge's second end. -/
theorem v14_hi (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal))
    (p : Fin 1000000) (k : Fin 64) :
    val_main_v14 (F := Ideal) x0 x1 x2 x3 (ix2 p (hi (by decide) k)) = val_main_v13 (F := Ideal) x0 x3 (ix2 p k) := by
  unfold val_main_v14
  exact concatenate_apply_piece (1 : Fin S1000000x192.rank) _ _ (ix2 p (hi (by decide) k)) 2 (by show (2 : Nat) < 3; omega)
    S1000000x64 (val_main_v13 (F := Ideal) x0 x3) rfl rfl 128 rfl (ix2 p k)
    (fun b hb => by match b with | ⟨0, _⟩ => rfl | ⟨1, _⟩ => exact absurd rfl hb)
    rfl

theorem v18_eq (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal)) :
    val_main_v18 (F := Ideal) x0 x1 x2 x3 x4 x5
      = edgeNew (R := 1000000) x1 (val_main_v6 (F := Ideal) x0 x2) (val_main_v13 (F := Ideal) x0 x3) x4 x5 := by
  funext i
  obtain ⟨p, q, rfl⟩ : ∃ (p : Fin 1000000) (q : Fin 64), i = ix2 p q := ⟨i 0, i 1, eq_ix2 i⟩
  have el : ∀ k : Fin 192, lidx_main_v15 (ix2 p q) k = ix2 p k := fun k =>
    funext fun a => Fin.ext (by match a with | ⟨0, _⟩ => rfl | ⟨1, _⟩ => rfl)
  have er : ∀ k : Fin 192, ridx_main_v15 (ix2 p q) k = ix2 k q := fun k =>
    funext fun a => Fin.ext (by match a with | ⟨0, _⟩ => rfl | ⟨1, _⟩ => rfl)
  have eb : idx_main_v16 (idx_main_v17 (ix2 p q)) = ix1 q :=
    funext fun a => Fin.ext (by match a with | ⟨0, _⟩ => rfl)
  rw [edgeNew_apply, val_main_v18_apply, val_main_v15_apply, val_main_v17_apply, val_main_v16_apply, eb, sum_192]
  simp only [el, er, v14_lo, v14_mid, v14_hi, Ideal.addf_def]

/-! ## The edge output: a normalisation of every row of the new edge features plus the old ones -/

/-- The reference's row mean of the residual sum, read at any index whose row coordinate is `p`, is the mean of row `p`. -/
theorem v56_row (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal))
    (p : Fin 1000000) (j : S1000000x1.Idx) (hj : (j 0).val = p.val) :
    val_main_v56 (F := Ideal) x0 x1 x2 x3 x4 x5 j
      = mean (fun k => addM (val_main_v18 (F := Ideal) x0 x1 x2 x3 x4 x5) x1 (ix2 p k)) := by
  rw [val_main_v56_apply, val_main_v54_apply, val_main_v53_apply, val_main_v55_apply, val_main_cst_8_apply,
    val_main_cst_9_apply]
  simp only [Ideal.hostDivf_def, Ideal.ofBits_def, Ideal.ofBits_zero_f32, zero_add]
  unfold mean c64
  refine congrArg (fun s => Ideal.div s _) (Finset.sum_congr rfl fun k _ => ?_)
  have e : idx_main_v53 (idx_main_v54 j) k = ix2 p k :=
    funext fun a => Fin.ext (by match a with | ⟨0, _⟩ => exact hj | ⟨1, _⟩ => rfl)
  rw [e]
  rfl

theorem v76_eq (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal))
    (x10 x11 : (⟨S64, .f32⟩ : BufTy).Contents (Elt Ideal)) :
    val_main_v76 (F := Ideal) x0 x1 x2 x3 x4 x5 x10 x11
      = lnR (addM (val_main_v18 (F := Ideal) x0 x1 x2 x3 x4 x5) x1) x10 x11 := by
  funext i
  obtain ⟨p, q, rfl⟩ : ∃ (p : Fin 1000000) (q : Fin 64), i = ix2 p q := ⟨i 0, i 1, eq_ix2 i⟩
  have hm := v56_row x0 x1 x2 x3 x4 x5 p
  have e60 : ∀ k : Fin 64, idx_main_v60 (idx_main_v61 (idx_main_v69 (ix2 p q))) k = ix2 p k := fun k =>
    funext fun a => Fin.ext (by match a with | ⟨0, _⟩ => rfl | ⟨1, _⟩ => rfl)
  have e71 : idx_main_v71 (idx_main_v72 (ix2 p q)) = ix1 q :=
    funext fun a => Fin.ext (by match a with | ⟨0, _⟩ => rfl)
  have e74 : idx_main_v74 (idx_main_v75 (ix2 p q)) = ix1 q :=
    funext fun a => Fin.ext (by match a with | ⟨0, _⟩ => rfl)
  have h59 : ∀ k : Fin 64, val_main_v59 (F := Ideal) x0 x1 x2 x3 x4 x5 (ix2 p k)
      = (addM (val_main_v18 (F := Ideal) x0 x1 x2 x3 x4 x5) x1 (ix2 p k)
          - mean (fun k => addM (val_main_v18 (F := Ideal) x0 x1 x2 x3 x4 x5) x1 (ix2 p k)))
        * (addM (val_main_v18 (F := Ideal) x0 x1 x2 x3 x4 x5) x1 (ix2 p k)
          - mean (fun k => addM (val_main_v18 (F := Ideal) x0 x1 x2 x3 x4 x5) x1 (ix2 p k))) := by
    intro k
    rw [val_main_v59_apply, val_main_v58_apply, val_main_v57_apply, hm _ rfl]
    rfl
  rw [lnR_apply, val_main_v76_apply, val_main_v73_apply, val_main_v70_apply, val_main_v65_apply, val_main_v64_apply,
    val_main_v69_apply, val_main_v68_apply, val_main_v67_apply, val_main_v63_apply, val_main_v61_apply, val_main_v60_apply,
    val_main_v66_apply, val_main_v62_apply, val_main_v72_apply, val_main_v71_apply, val_main_v75_apply, val_main_v74_apply,
    val_main_cst_10_apply, val_main_cst_11_apply, val_main_cst_12_apply, hm _ rfl, e71, e74]
  simp only [e60, h59, Ideal.hostDivf_def, Ideal.hostUnary_rsqrt_def, Ideal.addf_def, Ideal.subf_def, Ideal.mulf_def,
    Ideal.ofBits_def, Ideal.ofBits_zero_f32, zero_add]
  rfl

/-! ## The node output: a normalisation of every row of the new node features plus the old ones -/

/-- Columns 0 … 63 of the node's concatenated row are the node's own features. -/
theorem v22_lo (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal))
    (p : Fin 100000) (k : Fin 64) :
    val_main_v22 (F := Ideal) x0 x1 x2 x3 x4 x5 (ix2 p (lo (by decide) k)) = x0 (ix2 p k) := by
  unfold val_main_v22
  exact concatenate_pair_apply_left (1 : Fin S100000x128.rank) x0 _ _ (ix2 p (lo (by decide) k)) rfl (ix2 p k)
    (fun b => by match b with | ⟨0, _⟩ => rfl | ⟨1, _⟩ => rfl)

/-- Columns 64 … 127 of the node's concatenated row are the summed features of the edges that arrive at the node. -/
theorem v22_mid (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal))
    (p : Fin 100000) (k : Fin 64) :
    val_main_v22 (F := Ideal) x0 x1 x2 x3 x4 x5 (ix2 p (mid (by decide) k))
      = val_main_v21 (F := Ideal) x0 x1 x2 x3 x4 x5 (ix2 p k) := by
  unfold val_main_v22
  exact concatenate_pair_apply_right (1 : Fin S100000x128.rank) x0 (val_main_v21 (F := Ideal) x0 x1 x2 x3 x4 x5) _
    (ix2 p (mid (by decide) k)) rfl rfl (ix2 p k)
    (fun b hb => by match b with | ⟨0, _⟩ => rfl | ⟨1, _⟩ => exact absurd rfl hb)
    (Nat.add_comm _ _)

/-- The reference's new node features are the node's affine map with the weight matrix whole. -/
theorem v26_eq (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal)) :
    val_main_v26 (F := Ideal) x0 x1 x2 x3 x4 x5 x6 x7 = nodeNew (R := 100000) x0 (val_main_v21 (F := Ideal) x0 x1 x2 x3 x4 x5) x6 x7 := by
  funext i
  obtain ⟨p, q, rfl⟩ : ∃ (p : Fin 100000) (q : Fin 64), i = ix2 p q := ⟨i 0, i 1, eq_ix2 i⟩
  have el : ∀ k : Fin 128, lidx_main_v23 (ix2 p q) k = ix2 p k := fun k =>
    funext fun a => Fin.ext (by match a with | ⟨0, _⟩ => rfl | ⟨1, _⟩ => rfl)
  have er : ∀ k : Fin 128, ridx_main_v23 (ix2 p q) k = ix2 k q := fun k =>
    funext fun a => Fin.ext (by match a with | ⟨0, _⟩ => rfl | ⟨1, _⟩ => rfl)
  have eb : idx_main_v24 (idx_main_v25 (ix2 p q)) = ix1 q :=
    funext fun a => Fin.ext (by match a with | ⟨0, _⟩ => rfl)
  rw [nodeNew_apply, val_main_v26_apply, val_main_v23_apply, val_main_v25_apply, val_main_v24_apply, eb, sum_128]
  simp only [el, er, v22_lo, v22_mid, Ideal.addf_def]

/-- The reference's residual sum at the nodes. -/
theorem v27_eq (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal)) :
    val_main_v27 (F := Ideal) x0 x1 x2 x3 x4 x5 x6 x7 = addM (nodeNew (R := 100000) x0 (val_main_v21 (F := Ideal) x0 x1 x2 x3 x4 x5) x6 x7) x0 := by
  funext i
  rw [val_main_v27_apply, v26_eq]
  rfl

/-- The reference's row mean of the node's residual sum, read at any index whose row coordinate is `p`. -/
theorem v31_row (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal))
    (p : Fin 100000) (j : S100000x1.Idx) (hj : (j 0).val = p.val) :
    val_main_v31 (F := Ideal) x0 x1 x2 x3 x4 x5 x6 x7 j
      = mean (fun k => addM (nodeNew (R := 100000) x0 (val_main_v21 (F := Ideal) x0 x1 x2 x3 x4 x5) x6 x7) x0 (ix2 p k)) := by
  rw [val_main_v31_apply, val_main_v29_apply, val_main_v28_apply, val_main_v30_apply, val_main_cst_3_apply,
    val_main_cst_4_apply, v27_eq]
  simp only [Ideal.hostDivf_def, Ideal.ofBits_def, Ideal.ofBits_zero_f32, zero_add]
  unfold mean c64
  refine congrArg (fun s => Ideal.div s _) (Finset.sum_congr rfl fun k _ => ?_)
  have e : idx_main_v28 (idx_main_v29 j) k = ix2 p k :=
    funext fun a => Fin.ext (by match a with | ⟨0, _⟩ => exact hj | ⟨1, _⟩ => rfl)
  rw [e]

theorem v51_eq (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal))
    (x8 x9 : (⟨S64, .f32⟩ : BufTy).Contents (Elt Ideal)) :
    val_main_v51 (F := Ideal) x0 x1 x2 x3 x4 x5 x6 x7 x8 x9
      = lnR (addM (nodeNew (R := 100000) x0 (val_main_v21 (F := Ideal) x0 x1 x2 x3 x4 x5) x6 x7) x0) x8 x9 := by
  funext i
  obtain ⟨p, q, rfl⟩ : ∃ (p : Fin 100000) (q : Fin 64), i = ix2 p q := ⟨i 0, i 1, eq_ix2 i⟩
  have hm := v31_row x0 x1 x2 x3 x4 x5 x6 x7 p
  have e35 : ∀ k : Fin 64, idx_main_v35 (idx_main_v36 (idx_main_v44 (ix2 p q))) k = ix2 p k := fun k =>
    funext fun a => Fin.ext (by match a with | ⟨0, _⟩ => rfl | ⟨1, _⟩ => rfl)
  have e46 : idx_main_v46 (idx_main_v47 (ix2 p q)) = ix1 q :=
    funext fun a => Fin.ext (by match a with | ⟨0, _⟩ => rfl)
  have e49 : idx_main_v49 (idx_main_v50 (ix2 p q)) = ix1 q :=
    funext fun a => Fin.ext (by match a with | ⟨0, _⟩ => rfl)
  have h34 : ∀ k : Fin 64, val_main_v34 (F := Ideal) x0 x1 x2 x3 x4 x5 x6 x7 (ix2 p k)
      = (addM (nodeNew (R := 100000) x0 (val_main_v21 (F := Ideal) x0 x1 x2 x3 x4 x5) x6 x7) x0 (ix2 p k) - mean (fun k => addM (nodeNew (R := 100000) x0 (val_main_v21 (F := Ideal) x0 x1 x2 x3 x4 x5) x6 x7) x0 (ix2 p k)))
        * (addM (nodeNew (R := 100000) x0 (val_main_v21 (F := Ideal) x0 x1 x2 x3 x4 x5) x6 x7) x0 (ix2 p k) - mean (fun k => addM (nodeNew (R := 100000) x0 (val_main_v21 (F := Ideal) x0 x1 x2 x3 x4 x5) x6 x7) x0 (ix2 p k))) := by
    intro k
    rw [val_main_v34_apply, val_main_v33_apply, val_main_v32_apply, hm _ rfl, v27_eq]
    rfl
  rw [lnR_apply, val_main_v51_apply, val_main_v48_apply, val_main_v45_apply, val_main_v40_apply, val_main_v39_apply,
    val_main_v44_apply, val_main_v43_apply, val_main_v42_apply, val_main_v38_apply, val_main_v36_apply, val_main_v35_apply,
    val_main_v41_apply, val_main_v37_apply, val_main_v47_apply, val_main_v46_apply, val_main_v50_apply, val_main_v49_apply,
    val_main_cst_5_apply, val_main_cst_6_apply, val_main_cst_7_apply, hm _ rfl, e46, e49, v27_eq]
  simp only [e35, h34, Ideal.hostDivf_def, Ideal.hostUnary_rsqrt_def, Ideal.addf_def, Ideal.subf_def, Ideal.mulf_def,
    Ideal.ofBits_def, Ideal.ofBits_zero_f32, zero_add]
  rfl

end Cert.ReferenceIdeal.RefValue

end
-- ==== Proof.RefResults.lean ====
/-
  The reference program's two results as the same functions of the argument arrays.

  The reference gathers the node rows and scatters the new edge features with the very host operations the kernel
  program uses, on the same operands; between them it computes the affine maps and the normalisations on the host.
-/
import proofs.«118604_j17901423690016_1_alg».proof.Proof.Gen.ReferenceIdeal.Read
import proofs.«118604_j17901423690016_1_alg».proof.Proof.RefValue
import proofs.«118604_j17901423690016_1_alg».proof.Proof.Results

noncomputable section

namespace Cert.ReferenceIdeal.Results

open Cert.ReferenceIdeal Cert.ReferenceIdeal.Gen Cert.ReferenceIdeal.Read Cert.GT
open Idealize.ShloMosaic Idealize.ShloMosaic.TcCoe Idealize.SL.Sem
open Cert.KernelIdeal.HostValue (gatherRows scatterRows)
open Cert.KernelIdeal.Results (newEdges edgesOut nodesOut)

/-- The reference's gathered sender rows are the kernel program's: the same host operations on the same operands. -/
theorem gather6_eq (x0 : (⟨S100000x64, .f32⟩ : BufTy).Contents (Elt Ideal)) (x2 : (⟨S1000000, .i32⟩ : BufTy).Contents (Elt Ideal)) :
    val_main_v6 (F := Ideal) x0 x2 = gatherRows x0 x2 := rfl
/-- The reference's gathered receiver rows likewise. -/
theorem gather13_eq (x0 : (⟨S100000x64, .f32⟩ : BufTy).Contents (Elt Ideal)) (x3 : (⟨S1000000, .i32⟩ : BufTy).Contents (Elt Ideal)) :
    val_main_v13 (F := Ideal) x0 x3 = gatherRows x0 x3 := rfl
/-- The reference's scatter-add is the kernel program's, of the reference's new edge features. -/
theorem scatter21_eq (x0 : (⟨S100000x64, .f32⟩ : BufTy).Contents (Elt Ideal)) (x1 : (⟨S1000000x64, .f32⟩ : BufTy).Contents (Elt Ideal)) (x2 x3 : (⟨S1000000, .i32⟩ : BufTy).Contents (Elt Ideal)) (x4 : (⟨S192x64, .f32⟩ : BufTy).Contents (Elt Ideal)) (x5 : (⟨S64, .f32⟩ : BufTy).Contents (Elt Ideal)) :
    val_main_v21 (F := Ideal) x0 x1 x2 x3 x4 x5 = scatterRows x3 (val_main_v18 (F := Ideal) x0 x1 x2 x3 x4 x5) := rfl

theorem v18_newEdges (x0 : (⟨S100000x64, .f32⟩ : BufTy).Contents (Elt Ideal)) (x1 : (⟨S1000000x64, .f32⟩ : BufTy).Contents (Elt Ideal)) (x2 x3 : (⟨S1000000, .i32⟩ : BufTy).Contents (Elt Ideal)) (x4 : (⟨S192x64, .f32⟩ : BufTy).Contents (Elt Ideal)) (x5 : (⟨S64, .f32⟩ : BufTy).Contents (Elt Ideal)) :
    val_main_v18 (F := Ideal) x0 x1 x2 x3 x4 x5 = newEdges x0 x1 x2 x3 x4 x5 := by
  rw [RefValue.v18_eq, gather6_eq, gather13_eq]
  rfl

theorem edges_result (m : (ℓ : Loc nD τ sig) → Buf (Elt Ideal) ℓ) (c : Dev nD) :
    Cert.ReferenceIdeal.Value.res_main_v76 m c
      = edgesOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := by
  rw [val_main_v76_eq, RefValue.v76_eq, v18_newEdges]
  rfl

theorem nodes_result (m : (ℓ : Loc nD τ sig) → Buf (Elt Ideal) ℓ) (c : Dev nD) :
    Cert.ReferenceIdeal.Value.res_main_v51 m c
      = nodesOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [val_main_v51_eq, RefValue.v51_eq, scatter21_eq, v18_newEdges]
  rfl

end Cert.ReferenceIdeal.Results

end
-- ==== Proof.lean ====
/-
  A graph layer: every edge is updated from its own features and its two end nodes' features by an affine map, every
  node from its own features and the sum of its incoming edges' new features by another, and each update is added to
  the old features and normalised row by row. The kernel program computes the affine maps in two tiled kernels, as
  sums of 64 × 64 products over row slices of the weight matrices; the reference computes them as one product with the
  concatenated rows. Over the extended reals a sum over the concatenated positions is the sum of the pieces' sums, so
  the two programs end with the same node array and the same edge array, for every input, finite or not: the
  precondition is not used. The frames of the two kernel programs are the generated ones; the reference's is its
  generated run with the results dropped; the idealization rewrote nothing.
-/
import proofs.«118604_j17901423690016_1_alg».proof.Defs
import proofs.«118604_j17901423690016_1_alg».proof.Proof.Gen.Kernel
import proofs.«118604_j17901423690016_1_alg».proof.Proof.Gen.Kernel.Skeleton
import proofs.«118604_j17901423690016_1_alg».proof.Proof.Gen.Kernel.Launch
import proofs.«118604_j17901423690016_1_alg».proof.Proof.Gen.Kernel.Points
import proofs.«118604_j17901423690016_1_alg».proof.Proof.Gen.Kernel.Frame
import proofs.«118604_j17901423690016_1_alg».proof.Proof.Gen.KernelIdeal
import proofs.«118604_j17901423690016_1_alg».proof.Proof.Gen.KernelIdeal.Skeleton
import proofs.«118604_j17901423690016_1_alg».proof.Proof.Gen.KernelIdeal.Launch
import proofs.«118604_j17901423690016_1_alg».proof.Proof.Gen.KernelIdeal.Points
import proofs.«118604_j17901423690016_1_alg».proof.Proof.Gen.KernelIdeal.Frame
import proofs.«118604_j17901423690016_1_alg».proof.Proof.Gen.ReferenceIdeal
import proofs.«118604_j17901423690016_1_alg».proof.Proof.Gen.ReferenceIdeal.Run
import proofs.«118604_j17901423690016_1_alg».proof.Proof.Gen.ReferenceIdeal.Read
import proofs.«118604_j17901423690016_1_alg».proof.Proof.Gen.Pre_finite_inputs
import proofs.«118604_j17901423690016_1_alg».proof.Proof.KernelValue
import proofs.«118604_j17901423690016_1_alg».proof.Proof.RefResults
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the node result and the edge result at the same functions of their argument arrays, and
    the argument arrays agree. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, -, -⟩ := hagree c
    rw [Cert.ReferenceIdeal.Results.nodes_result, h0, h1, h2, h3, h4, h5, h6, h7, h8, h9]
  · obtain ⟨h0, h1, h2, h3, h4, h5, -, -, -, -, h10, h11⟩ := hagree c
    rw [Cert.ReferenceIdeal.Results.edges_result, h0, h1, h2, h3, h4, h5, h10, h11]

/-- Everything claimed: the three frames, the idealization (which rewrote nothing) and the equality of the results. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
